-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2 : Shape := ⟨2, ![4096, 2]⟩
abbrev S4096 : Shape := ⟨1, ![4096]⟩
abbrev S4096x64 : Shape := ⟨2, ![4096, 64]⟩
abbrev S4096x1 : Shape := ⟨2, ![4096, 1]⟩
abbrev S100000x128 : Shape := ⟨2, ![100000, 128]⟩
abbrev S500000x128 : Shape := ⟨2, ![500000, 128]⟩
abbrev S200000x128 : Shape := ⟨2, ![200000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S200000x128 : S_.BroadcastsInDim S200000x128 (![] : Fin 0 → Fin S200000x128.rank)
  reducesTo_S200000x128_S_d0_1 : S200000x128.ReducesTo [0, 1] S_
  slices_S4096x2_S4096x1_0_0 : S4096x2.Slices ![0, 0] S4096x1
  shapeCasts_S4096x1_S4096 : S4096x1.ShapeCasts S4096
  bcast_S_S4096 : S_.BroadcastsInDim S4096 (![] : Fin 0 → Fin S4096.rank)
  reducesTo_S4096_S_d0 : S4096.ReducesTo [0] S_
  slices_S4096x2_S4096x1_0_1 : S4096x2.Slices ![0, 1] S4096x1
  bcast_S_S4096x64 : S_.BroadcastsInDim S4096x64 (![] : Fin 0 → Fin S4096x64.rank)
  reducesTo_S4096x64_S_d0_1 : S4096x64.ReducesTo [0, 1] S_

variable [Facts]

def fn_part4 {F : FTy → Type} [FloatOps F] (main_arg5 : IVec S4096x64 32) (main_v64 : IVec S_ 1) (main_v66 : IVec S4096x64 1) (main_v67 : IVec S4096x64 32) : IVec S_ 1 :=
  let main_v68 : IVec S4096x64 1 := cmpi .slt main_arg5 main_v67
  let main_v69 : IVec S4096x64 1 := andi main_v66 main_v68
  let main_c_26 : IVec S_ 1 := constantI S_ 1 1#1
  let main_v70 : IVec S_ 1 := (fun x v => Host.reduce IntOp.andi x v reducesTo_S4096x64_S_d0_1 h_S_) main_v69 main_c_26
  let main_v71 : IVec S_ 1 := andi main_v64 main_v70
  main_v71

def fn_part3 {F : FTy → Type} [FloatOps F] (main_arg3 : IVec S4096x64 32) (main_arg4 : IVec S4096x64 32) (main_arg5 : IVec S4096x64 32) (main_v50 : IVec S_ 1) (main_c_18 : IVec S_ 32) : IVec S_ 1 :=
  let main_v51 : IVec S4096x64 32 := broadcastInDim S4096x64 ![] bcast_S_S4096x64 main_c_18
  let main_v52 : IVec S4096x64 1 := cmpi .sge main_arg3 main_v51
  let main_c_19 : IVec S_ 32 := constantI S_ 32 500000#32
  let main_v53 : IVec S4096x64 32 := broadcastInDim S4096x64 ![] bcast_S_S4096x64 main_c_19
  let main_v54 : IVec S4096x64 1 := cmpi .slt main_arg3 main_v53
  let main_v55 : IVec S4096x64 1 := andi main_v52 main_v54
  let main_c_20 : IVec S_ 1 := constantI S_ 1 1#1
  let main_v56 : IVec S_ 1 := (fun x v => Host.reduce IntOp.andi x v reducesTo_S4096x64_S_d0_1 h_S_) main_v55 main_c_20
  let main_v57 : IVec S_ 1 := andi main_v50 main_v56
  let main_c_21 : IVec S_ 32 := constantI S_ 32 4294867296#32
  let main_v58 : IVec S4096x64 32 := broadcastInDim S4096x64 ![] bcast_S_S4096x64 main_c_21
  let main_v59 : IVec S4096x64 1 := cmpi .sge main_arg4 main_v58
  let main_c_22 : IVec S_ 32 := constantI S_ 32 100000#32
  let main_v60 : IVec S4096x64 32 := broadcastInDim S4096x64 ![] bcast_S_S4096x64 main_c_22
  let main_v61 : IVec S4096x64 1 := cmpi .slt main_arg4 main_v60
  let main_v62 : IVec S4096x64 1 := andi main_v59 main_v61
  let main_c_23 : IVec S_ 1 := constantI S_ 1 1#1
  let main_v63 : IVec S_ 1 := (fun x v => Host.reduce IntOp.andi x v reducesTo_S4096x64_S_d0_1 h_S_) main_v62 main_c_23
  let main_v64 : IVec S_ 1 := andi main_v57 main_v63
  let main_c_24 : IVec S_ 32 := constantI S_ 32 4294767296#32
  let main_v65 : IVec S4096x64 32 := broadcastInDim S4096x64 ![] bcast_S_S4096x64 main_c_24
  let main_v66 : IVec S4096x64 1 := cmpi .sge main_arg5 main_v65
  let main_c_25 : IVec S_ 32 := constantI S_ 32 200000#32
  let main_v67 : IVec S4096x64 32 := broadcastInDim S4096x64 ![] bcast_S_S4096x64 main_c_25
  fn_part4 (F := F) main_arg5 main_v64 main_v66 main_v67

def fn_part2 {F : FTy → Type} [FloatOps F] (main_arg1 : IVec S4096 32) (main_arg2 : IVec S4096 32) (main_arg3 : IVec S4096x64 32) (main_arg4 : IVec S4096x64 32) (main_arg5 : IVec S4096x64 32) (main_v27 : IVec S_ 1) (main_v34 : IVec S4096 1) : IVec S_ 1 :=
  let main_c_11 : IVec S_ 1 := constantI S_ 1 1#1
  let main_v35 : IVec S_ 1 := (fun x v => Host.reduce IntOp.andi x v reducesTo_S4096_S_d0 h_S_) main_v34 main_c_11
  let main_v36 : IVec S_ 1 := andi main_v27 main_v35
  let main_c_12 : IVec S_ 32 := constantI S_ 32 4294867296#32
  let main_v37 : IVec S4096 32 := broadcastInDim S4096 ![] bcast_S_S4096 main_c_12
  let main_v38 : IVec S4096 1 := cmpi .sge main_arg1 main_v37
  let main_c_13 : IVec S_ 32 := constantI S_ 32 100000#32
  let main_v39 : IVec S4096 32 := broadcastInDim S4096 ![] bcast_S_S4096 main_c_13
  let main_v40 : IVec S4096 1 := cmpi .slt main_arg1 main_v39
  let main_v41 : IVec S4096 1 := andi main_v38 main_v40
  let main_c_14 : IVec S_ 1 := constantI S_ 1 1#1
  let main_v42 : IVec S_ 1 := (fun x v => Host.reduce IntOp.andi x v reducesTo_S4096_S_d0 h_S_) main_v41 main_c_14
  let main_v43 : IVec S_ 1 := andi main_v36 main_v42
  let main_c_15 : IVec S_ 32 := constantI S_ 32 4294767296#32
  let main_v44 : IVec S4096 32 := broadcastInDim S4096 ![] bcast_S_S4096 main_c_15
  let main_v45 : IVec S4096 1 := cmpi .sge main_arg2 main_v44
  let main_c_16 : IVec S_ 32 := constantI S_ 32 200000#32
  let main_v46 : IVec S4096 32 := broadcastInDim S4096 ![] bcast_S_S4096 main_c_16
  let main_v47 : IVec S4096 1 := cmpi .slt main_arg2 main_v46
  let main_v48 : IVec S4096 1 := andi main_v45 main_v47
  let main_c_17 : IVec S_ 1 := constantI S_ 1 1#1
  let main_v49 : IVec S_ 1 := (fun x v => Host.reduce IntOp.andi x v reducesTo_S4096_S_d0 h_S_) main_v48 main_c_17
  let main_v50 : IVec S_ 1 := andi main_v43 main_v49
  let main_c_18 : IVec S_ 32 := constantI S_ 32 4294467296#32
  fn_part3 (F := F) main_arg3 main_arg4 main_arg5 main_v50 main_c_18

def fn_part1 {F : FTy → Type} [FloatOps F] (main_arg0 : IVec S4096x2 32) (main_arg1 : IVec S4096 32) (main_arg2 : IVec S4096 32) (main_arg3 : IVec S4096x64 32) (main_arg4 : IVec S4096x64 32) (main_arg5 : IVec S4096x64 32) (main_v13 : IVec S_ 1) (main_v16 : IVec S200000x128 1) : IVec S_ 1 :=
  let main_c_5 : IVec S_ 1 := constantI S_ 1 1#1
  let main_v17 : IVec S_ 1 := (fun x v => Host.reduce IntOp.andi x v reducesTo_S200000x128_S_d0_1 h_S_) main_v16 main_c_5
  let main_v18 : IVec S_ 1 := andi main_v13 main_v17
  let main_v19 : IVec S4096x1 32 := (extractStridedSlice S4096x1 ![0, 0] · slices_S4096x2_S4096x1_0_0) main_arg0
  let main_v20 : IVec S4096 32 := shapeCast S4096 main_v19 shapeCasts_S4096x1_S4096
  let main_c_6 : IVec S_ 32 := constantI S_ 32 4294867296#32
  let main_v21 : IVec S4096 32 := broadcastInDim S4096 ![] bcast_S_S4096 main_c_6
  let main_v22 : IVec S4096 1 := cmpi .sge main_v20 main_v21
  let main_c_7 : IVec S_ 32 := constantI S_ 32 100000#32
  let main_v23 : IVec S4096 32 := broadcastInDim S4096 ![] bcast_S_S4096 main_c_7
  let main_v24 : IVec S4096 1 := cmpi .slt main_v20 main_v23
  let main_v25 : IVec S4096 1 := andi main_v22 main_v24
  let main_c_8 : IVec S_ 1 := constantI S_ 1 1#1
  let main_v26 : IVec S_ 1 := (fun x v => Host.reduce IntOp.andi x v reducesTo_S4096_S_d0 h_S_) main_v25 main_c_8
  let main_v27 : IVec S_ 1 := andi main_v18 main_v26
  let main_v28 : IVec S4096x1 32 := (extractStridedSlice S4096x1 ![0, 1] · slices_S4096x2_S4096x1_0_1) main_arg0
  let main_v29 : IVec S4096 32 := shapeCast S4096 main_v28 shapeCasts_S4096x1_S4096
  let main_c_9 : IVec S_ 32 := constantI S_ 32 4294467296#32
  let main_v30 : IVec S4096 32 := broadcastInDim S4096 ![] bcast_S_S4096 main_c_9
  let main_v31 : IVec S4096 1 := cmpi .sge main_v29 main_v30
  let main_c_10 : IVec S_ 32 := constantI S_ 32 500000#32
  let main_v32 : IVec S4096 32 := broadcastInDim S4096 ![] bcast_S_S4096 main_c_10
  let main_v33 : IVec S4096 1 := cmpi .slt main_v29 main_v32
  let main_v34 : IVec S4096 1 := andi main_v31 main_v33
  fn_part2 (F := F) main_arg1 main_arg2 main_arg3 main_arg4 main_arg5 main_v27 main_v34

def fn {F : FTy → Type} [FloatOps F] (main_arg0 : IVec S4096x2 32) (main_arg1 : IVec S4096 32) (main_arg2 : IVec S4096 32) (main_arg3 : IVec S4096x64 32) (main_arg4 : IVec S4096x64 32) (main_arg5 : IVec S4096x64 32) (main_arg6 : IVec S4096x1 32) (main_arg7 : IVec S4096 32) (main_arg8 : FVec F S100000x128 .f32) (main_arg9 : FVec F S500000x128 .f32) (main_arg10 : FVec F S100000x128 .f32) (main_arg11 : FVec F S200000x128 .f32) : IVec S_ 1 :=
  let main_v0 : FVec F S100000x128 .f32 := Host.absf main_arg8
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S500000x128 .f32 := Host.absf main_arg9
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S100000x128 .f32 := Host.absf main_arg10
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S200000x128 .f32 := Host.absf main_arg11
  let main_cst_4 : FVec F S_ .f32 := constant S_ .f32 0x7F800000#32
  let main_v15 : FVec F S200000x128 .f32 := broadcastInDim S200000x128 ![] bcast_S_S200000x128 main_cst_4
  let main_v16 : IVec S200000x128 1 := cmpf .olt main_v14 main_v15
  fn_part1 (F := F) main_arg0 main_arg1 main_arg2 main_arg3 main_arg4 main_arg5 main_v13 main_v16
-- ==== Kernel.lean ====
abbrev S4096x2 : Shape := ⟨2, ![4096, 2]⟩
abbrev S4096 : Shape := ⟨1, ![4096]⟩
abbrev S4096x64 : Shape := ⟨2, ![4096, 64]⟩
abbrev S4096x1 : Shape := ⟨2, ![4096, 1]⟩
abbrev S100000x128 : Shape := ⟨2, ![100000, 128]⟩
abbrev S500000x128 : Shape := ⟨2, ![500000, 128]⟩
abbrev S200000x128 : Shape := ⟨2, ![200000, 128]⟩
abbrev S_ : Shape := ⟨0, ![]⟩
abbrev S1 : Shape := ⟨1, ![1]⟩
abbrev S1x1 : Shape := ⟨2, ![1, 1]⟩
abbrev S4096x128 : Shape := ⟨2, ![4096, 128]⟩
abbrev S4096x64x1 : Shape := ⟨3, ![4096, 64, 1]⟩
abbrev S1x1x1 : Shape := ⟨3, ![1, 1, 1]⟩
abbrev S4096x64x128 : Shape := ⟨3, ![4096, 64, 128]⟩
abbrev S128x128 : Shape := ⟨2, ![128, 128]⟩
abbrev S128x64x128 : Shape := ⟨3, ![128, 64, 128]⟩
abbrev S128 : Shape := ⟨1, ![128]⟩
abbrev S128x64 : Shape := ⟨2, ![128, 64]⟩
abbrev S128x1x128 : Shape := ⟨3, ![128, 1, 128]⟩

abbrev nBuf : Space → Nat
  | .hbm => 190
  | .vmem => 12
  | .smem => 0
  | _ => 0

abbrev hbmTy0_0 (i : Nat) : BufTy := match i % 128 with
  | 0 => ⟨S4096x2, .i32⟩
  | 1 => ⟨S4096, .i32⟩
  | 2 => ⟨S4096, .i32⟩
  | 3 => ⟨S4096x64, .i32⟩
  | 4 => ⟨S4096x64, .i32⟩
  | 5 => ⟨S4096x64, .i32⟩
  | 6 => ⟨S4096x1, .i32⟩
  | 7 => ⟨S4096, .i32⟩
  | 8 => ⟨S100000x128, .f32⟩
  | 9 => ⟨S500000x128, .f32⟩
  | 10 => ⟨S100000x128, .f32⟩
  | 11 => ⟨S200000x128, .f32⟩
  | 12 => ⟨S4096x1, .i32⟩
  | 13 => ⟨S4096, .i32⟩
  | 14 => ⟨S4096x1, .i32⟩
  | 15 => ⟨S4096, .i32⟩
  | 16 => ⟨S_, .i32⟩
  | 17 => ⟨S4096, .i32⟩
  | 18 => ⟨S4096, .i1⟩
  | 19 => ⟨S_, .i32⟩
  | 20 => ⟨S4096, .i32⟩
  | 21 => ⟨S4096, .i32⟩
  | 22 => ⟨S4096, .i32⟩
  | 23 => ⟨S4096x1, .i32⟩
  | 24 => ⟨S1, .i32⟩
  | 25 => ⟨S_, .i32⟩
  | 26 => ⟨S4096x1, .i32⟩
  | 27 => ⟨S4096x1, .i1⟩
  | 28 => ⟨S1x1, .i32⟩
  | 29 => ⟨S4096x1, .i32⟩
  | 30 => ⟨S4096x1, .i1⟩
  | 31 => ⟨S4096x1, .i1⟩
  | 32 => ⟨S_, .i1⟩
  | 33 => ⟨S4096, .i1⟩
  | 34 => ⟨S4096x128, .f32⟩
  | 35 => ⟨S4096x128, .i1⟩
  | 36 => ⟨S_, .f32⟩
  | 37 => ⟨S4096x128, .f32⟩
  | 38 => ⟨S4096x128, .f32⟩
  | 39 => ⟨S_, .i32⟩
  | 40 => ⟨S4096, .i32⟩
  | 41 => ⟨S4096, .i1⟩
  | 42 => ⟨S_, .i32⟩
  | 43 => ⟨S4096, .i32⟩
  | 44 => ⟨S4096, .i32⟩
  | 45 => ⟨S4096, .i32⟩
  | 46 => ⟨S4096x1, .i32⟩
  | 47 => ⟨S1, .i32⟩
  | 48 => ⟨S_, .i32⟩
  | 49 => ⟨S4096x1, .i32⟩
  | 50 => ⟨S4096x1, .i1⟩
  | 51 => ⟨S1x1, .i32⟩
  | 52 => ⟨S4096x1, .i32⟩
  | 53 => ⟨S4096x1, .i1⟩
  | 54 => ⟨S4096x1, .i1⟩
  | 55 => ⟨S_, .i1⟩
  | 56 => ⟨S4096, .i1⟩
  | 57 => ⟨S4096x128, .f32⟩
  | 58 => ⟨S4096x128, .i1⟩
  | 59 => ⟨S_, .f32⟩
  | 60 => ⟨S4096x128, .f32⟩
  | 61 => ⟨S4096x128, .f32⟩
  | 62 => ⟨S_, .i32⟩
  | 63 => ⟨S4096, .i32⟩
  | 64 => ⟨S4096, .i1⟩
  | 65 => ⟨S_, .i32⟩
  | 66 => ⟨S4096, .i32⟩
  | 67 => ⟨S4096, .i32⟩
  | 68 => ⟨S4096, .i32⟩
  | 69 => ⟨S4096x1, .i32⟩
  | 70 => ⟨S1, .i32⟩
  | 71 => ⟨S_, .i32⟩
  | 72 => ⟨S4096x1, .i32⟩
  | 73 => ⟨S4096x1, .i1⟩
  | 74 => ⟨S1x1, .i32⟩
  | 75 => ⟨S4096x1, .i32⟩
  | 76 => ⟨S4096x1, .i1⟩
  | 77 => ⟨S4096x1, .i1⟩
  | 78 => ⟨S_, .i1⟩
  | 79 => ⟨S4096, .i1⟩
  | 80 => ⟨S4096x128, .f32⟩
  | 81 => ⟨S4096x128, .i1⟩
  | 82 => ⟨S_, .f32⟩
  | 83 => ⟨S4096x128, .f32⟩
  | 84 => ⟨S4096x128, .f32⟩
  | 85 => ⟨S4096x128, .f32⟩
  | 86 => ⟨S_, .i32⟩
  | 87 => ⟨S4096, .i32⟩
  | 88 => ⟨S4096, .i1⟩
  | 89 => ⟨S_, .i32⟩
  | 90 => ⟨S4096, .i32⟩
  | 91 => ⟨S4096, .i32⟩
  | 92 => ⟨S4096, .i32⟩
  | 93 => ⟨S4096x1, .i32⟩
  | 94 => ⟨S1, .i32⟩
  | 95 => ⟨S_, .i32⟩
  | 96 => ⟨S4096x1, .i32⟩
  | 97 => ⟨S4096x1, .i1⟩
  | 98 => ⟨S1x1, .i32⟩
  | 99 => ⟨S4096x1, .i32⟩
  | 100 => ⟨S4096x1, .i1⟩
  | 101 => ⟨S4096x1, .i1⟩
  | 102 => ⟨S_, .i1⟩
  | 103 => ⟨S4096, .i1⟩
  | 104 => ⟨S4096x128, .f32⟩
  | 105 => ⟨S4096x128, .i1⟩
  | 106 => ⟨S_, .f32⟩
  | 107 => ⟨S4096x128, .f32⟩
  | 108 => ⟨S4096x128, .f32⟩
  | 109 => ⟨S4096x128, .f32⟩
  | 110 => ⟨S_, .f32⟩
  | 111 => ⟨S4096x128, .f32⟩
  | 112 => ⟨S4096x128, .f32⟩
  | 113 => ⟨S_, .i32⟩
  | 114 => ⟨S4096x64, .i32⟩
  | 115 => ⟨S4096x64, .i1⟩
  | 116 => ⟨S_, .i32⟩
  | 117 => ⟨S4096x64, .i32⟩
  | 118 => ⟨S4096x64, .i32⟩
  | 119 => ⟨S4096x64, .i32⟩
  | 120 => ⟨S4096x64x1, .i32⟩
  | 121 => ⟨S1, .i32⟩
  | 122 => ⟨S_, .i32⟩
  | 123 => ⟨S4096x64x1, .i32⟩
  | 124 => ⟨S4096x64x1, .i1⟩
  | 125 => ⟨S1x1x1, .i32⟩
  | 126 => ⟨S4096x64x1, .i32⟩
  | 127 => ⟨S4096x64x1, .i1⟩
  | _ => ⟨S4096x2, .i32⟩

abbrev hbmTy0_1 (i : Nat) : BufTy := match i % 128 with
  | 0 => ⟨S4096x64x1, .i1⟩
  | 1 => ⟨S_, .i1⟩
  | 2 => ⟨S4096x64, .i1⟩
  | 3 => ⟨S4096x64x128, .f32⟩
  | 4 => ⟨S4096x64x128, .i1⟩
  | 5 => ⟨S_, .f32⟩
  | 6 => ⟨S4096x64x128, .f32⟩
  | 7 => ⟨S4096x64x128, .f32⟩
  | 8 => ⟨S_, .i32⟩
  | 9 => ⟨S4096x64, .i32⟩
  | 10 => ⟨S4096x64, .i1⟩
  | 11 => ⟨S_, .i32⟩
  | 12 => ⟨S4096x64, .i32⟩
  | 13 => ⟨S4096x64, .i32⟩
  | 14 => ⟨S4096x64, .i32⟩
  | 15 => ⟨S4096x64x1, .i32⟩
  | 16 => ⟨S1, .i32⟩
  | 17 => ⟨S_, .i32⟩
  | 18 => ⟨S4096x64x1, .i32⟩
  | 19 => ⟨S4096x64x1, .i1⟩
  | 20 => ⟨S1x1x1, .i32⟩
  | 21 => ⟨S4096x64x1, .i32⟩
  | 22 => ⟨S4096x64x1, .i1⟩
  | 23 => ⟨S4096x64x1, .i1⟩
  | 24 => ⟨S_, .i1⟩
  | 25 => ⟨S4096x64, .i1⟩
  | 26 => ⟨S4096x64x128, .f32⟩
  | 27 => ⟨S4096x64x128, .i1⟩
  | 28 => ⟨S_, .f32⟩
  | 29 => ⟨S4096x64x128, .f32⟩
  | 30 => ⟨S4096x64x128, .f32⟩
  | 31 => ⟨S4096x64x128, .f32⟩
  | 32 => ⟨S_, .i32⟩
  | 33 => ⟨S4096x64, .i32⟩
  | 34 => ⟨S4096x64, .i1⟩
  | 35 => ⟨S_, .i32⟩
  | 36 => ⟨S4096x64, .i32⟩
  | 37 => ⟨S4096x64, .i32⟩
  | 38 => ⟨S4096x64, .i32⟩
  | 39 => ⟨S4096x64x1, .i32⟩
  | 40 => ⟨S1, .i32⟩
  | 41 => ⟨S_, .i32⟩
  | 42 => ⟨S4096x64x1, .i32⟩
  | 43 => ⟨S4096x64x1, .i1⟩
  | 44 => ⟨S1x1x1, .i32⟩
  | 45 => ⟨S4096x64x1, .i32⟩
  | 46 => ⟨S4096x64x1, .i1⟩
  | 47 => ⟨S4096x64x1, .i1⟩
  | 48 => ⟨S_, .i1⟩
  | 49 => ⟨S4096x64, .i1⟩
  | 50 => ⟨S4096x64x128, .f32⟩
  | 51 => ⟨S4096x64x128, .i1⟩
  | 52 => ⟨S_, .f32⟩
  | 53 => ⟨S4096x64x128, .f32⟩
  | 54 => ⟨S4096x64x128, .f32⟩
  | 55 => ⟨S4096x64x128, .f32⟩
  | 56 => ⟨S_, .f32⟩
  | 57 => ⟨S4096x64x128, .f32⟩
  | 58 => ⟨S4096x64x128, .f32⟩
  | 59 => ⟨S4096, .f32⟩
  | 60 => ⟨S4096x64, .f32⟩
  | 61 => ⟨S4096, .f32⟩
  | _ => ⟨S4096x2, .i32⟩

abbrev hbmTy (i : Nat) : BufTy := match i / 128 with
  | 0 => hbmTy0_0 i
  | 1 => hbmTy0_1 i
  | _ => ⟨S4096x2, .i32⟩

abbrev bufTy : (tb : Table) → Fin (tcTables nBuf tb) → BufTy
  | .hbm, ⟨i, _⟩ => hbmTy i
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x64x128, .f32⟩
  | .local _ .vmem, ⟨5, _⟩ => ⟨S128x64x128, .f32⟩
  | .local _ .vmem, ⟨6, _⟩ => ⟨S128, .f32⟩
  | .local _ .vmem, ⟨7, _⟩ => ⟨S128, .f32⟩
  | .local _ .vmem, ⟨8, _⟩ => ⟨S128x64, .f32⟩
  | .local _ .vmem, ⟨9, _⟩ => ⟨S128x64, .f32⟩
  | .local _ .vmem, ⟨10, _⟩ => ⟨S128, .f32⟩
  | .local _ .vmem, ⟨11, _⟩ => ⟨S128, .f32⟩
  | _, _ => ⟨S4096x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v4 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v5 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_call2_cst : Ref sig .tc := ⟨.hbm, 82, rfl⟩
abbrev main_call2_v15 : Ref sig .tc := ⟨.hbm, 83, rfl⟩
abbrev main_v6 : Ref sig .tc := ⟨.hbm, 84, rfl⟩
abbrev main_v7 : Ref sig .tc := ⟨.hbm, 85, rfl⟩
abbrev main_call3_c : Ref sig .tc := ⟨.hbm, 86, rfl⟩
abbrev main_call3_v0 : Ref sig .tc := ⟨.hbm, 87, rfl⟩
abbrev main_call3_v1 : Ref sig .tc := ⟨.hbm, 88, rfl⟩
abbrev main_call3_c_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_c_1 : Ref sig .tc := ⟨.hbm, 94, rfl⟩
abbrev main_call3_c_2 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_c_3 : Ref sig .tc := ⟨.hbm, 102, rfl⟩
abbrev main_call3_v12 : Ref sig .tc := ⟨.hbm, 103, rfl⟩
abbrev main_call3_v13 : Ref sig .tc := ⟨.hbm, 104, rfl⟩
abbrev main_call3_v14 : Ref sig .tc := ⟨.hbm, 105, rfl⟩
abbrev main_call3_cst : Ref sig .tc := ⟨.hbm, 106, rfl⟩
abbrev main_call3_v15 : Ref sig .tc := ⟨.hbm, 107, rfl⟩
abbrev main_v8 : Ref sig .tc := ⟨.hbm, 108, rfl⟩
abbrev main_v9 : Ref sig .tc := ⟨.hbm, 109, rfl⟩
abbrev main_cst : Ref sig .tc := ⟨.hbm, 110, rfl⟩
abbrev main_v10 : Ref sig .tc := ⟨.hbm, 111, rfl⟩
abbrev main_v11 : Ref sig .tc := ⟨.hbm, 112, rfl⟩
abbrev main_call4_c : Ref sig .tc := ⟨.hbm, 113, rfl⟩
abbrev main_call4_v0 : Ref sig .tc := ⟨.hbm, 114, rfl⟩
abbrev main_call4_v1 : Ref sig .tc := ⟨.hbm, 115, rfl⟩
abbrev main_call4_c_0 : Ref sig .tc := ⟨.hbm, 116, rfl⟩
abbrev main_call4_v2 : Ref sig .tc := ⟨.hbm, 117, rfl⟩
abbrev main_call4_v3 : Ref sig .tc := ⟨.hbm, 118, rfl⟩
abbrev main_call4_v4 : Ref sig .tc := ⟨.hbm, 119, rfl⟩
abbrev main_call4_v5 : Ref sig .tc := ⟨.hbm, 120, rfl⟩
abbrev main_call4_c_1 : Ref sig .tc := ⟨.hbm, 121, rfl⟩
abbrev main_call4_c_2 : Ref sig .tc := ⟨.hbm, 122, rfl⟩
abbrev main_call4_v6 : Ref sig .tc := ⟨.hbm, 123, rfl⟩
abbrev main_call4_v7 : Ref sig .tc := ⟨.hbm, 124, rfl⟩
abbrev main_call4_v8 : Ref sig .tc := ⟨.hbm, 125, rfl⟩
abbrev main_call4_v9 : Ref sig .tc := ⟨.hbm, 126, rfl⟩
abbrev main_call4_v10 : Ref sig .tc := ⟨.hbm, 127, rfl⟩
abbrev main_call4_v11 : Ref sig .tc := ⟨.hbm, 128, rfl⟩
abbrev main_call4_c_3 : Ref sig .tc := ⟨.hbm, 129, rfl⟩
abbrev main_call4_v12 : Ref sig .tc := ⟨.hbm, 130, rfl⟩
abbrev main_call4_v13 : Ref sig .tc := ⟨.hbm, 131, rfl⟩
abbrev main_call4_v14 : Ref sig .tc := ⟨.hbm, 132, rfl⟩
abbrev main_call4_cst : Ref sig .tc := ⟨.hbm, 133, rfl⟩
abbrev main_call4_v15 : Ref sig .tc := ⟨.hbm, 134, rfl⟩
abbrev main_v12 : Ref sig .tc := ⟨.hbm, 135, rfl⟩
abbrev main_call5_c : Ref sig .tc := ⟨.hbm, 136, rfl⟩
abbrev main_call5_v0 : Ref sig .tc := ⟨.hbm, 137, rfl⟩
abbrev main_call5_v1 : Ref sig .tc := ⟨.hbm, 138, rfl⟩
abbrev main_call5_c_0 : Ref sig .tc := ⟨.hbm, 139, rfl⟩
abbrev main_call5_v2 : Ref sig .tc := ⟨.hbm, 140, rfl⟩
abbrev main_call5_v3 : Ref sig .tc := ⟨.hbm, 141, rfl⟩
abbrev main_call5_v4 : Ref sig .tc := ⟨.hbm, 142, rfl⟩
abbrev main_call5_v5 : Ref sig .tc := ⟨.hbm, 143, rfl⟩
abbrev main_call5_c_1 : Ref sig .tc := ⟨.hbm, 144, rfl⟩
abbrev main_call5_c_2 : Ref sig .tc := ⟨.hbm, 145, rfl⟩
abbrev main_call5_v6 : Ref sig .tc := ⟨.hbm, 146, rfl⟩
abbrev main_call5_v7 : Ref sig .tc := ⟨.hbm, 147, rfl⟩
abbrev main_call5_v8 : Ref sig .tc := ⟨.hbm, 148, rfl⟩
abbrev main_call5_v9 : Ref sig .tc := ⟨.hbm, 149, rfl⟩
abbrev main_call5_v10 : Ref sig .tc := ⟨.hbm, 150, rfl⟩
abbrev main_call5_v11 : Ref sig .tc := ⟨.hbm, 151, rfl⟩
abbrev main_call5_c_3 : Ref sig .tc := ⟨.hbm, 152, rfl⟩
abbrev main_call5_v12 : Ref sig .tc := ⟨.hbm, 153, rfl⟩
abbrev main_call5_v13 : Ref sig .tc := ⟨.hbm, 154, rfl⟩
abbrev main_call5_v14 : Ref sig .tc := ⟨.hbm, 155, rfl⟩
abbrev main_call5_cst : Ref sig .tc := ⟨.hbm, 156, rfl⟩
abbrev main_call5_v15 : Ref sig .tc := ⟨.hbm, 157, rfl⟩
abbrev main_v13 : Ref sig .tc := ⟨.hbm, 158, rfl⟩
abbrev main_v14 : Ref sig .tc := ⟨.hbm, 159, rfl⟩
abbrev main_call6_c : Ref sig .tc := ⟨.hbm, 160, rfl⟩
abbrev main_call6_v0 : Ref sig .tc := ⟨.hbm, 161, rfl⟩
abbrev main_call6_v1 : Ref sig .tc := ⟨.hbm, 162, rfl⟩
abbrev main_call6_c_0 : Ref sig .tc := ⟨.hbm, 163, rfl⟩
abbrev main_call6_v2 : Ref sig .tc := ⟨.hbm, 164, rfl⟩
abbrev main_call6_v3 : Ref sig .tc := ⟨.hbm, 165, rfl⟩
abbrev main_call6_v4 : Ref sig .tc := ⟨.hbm, 166, rfl⟩
abbrev main_call6_v5 : Ref sig .tc := ⟨.hbm, 167, rfl⟩
abbrev main_call6_c_1 : Ref sig .tc := ⟨.hbm, 168, rfl⟩
abbrev main_call6_c_2 : Ref sig .tc := ⟨.hbm, 169, rfl⟩
abbrev main_call6_v6 : Ref sig .tc := ⟨.hbm, 170, rfl⟩
abbrev main_call6_v7 : Ref sig .tc := ⟨.hbm, 171, rfl⟩
abbrev main_call6_v8 : Ref sig .tc := ⟨.hbm, 172, rfl⟩
abbrev main_call6_v9 : Ref sig .tc := ⟨.hbm, 173, rfl⟩
abbrev main_call6_v10 : Ref sig .tc := ⟨.hbm, 174, rfl⟩
abbrev main_call6_v11 : Ref sig .tc := ⟨.hbm, 175, rfl⟩
abbrev main_call6_c_3 : Ref sig .tc := ⟨.hbm, 176, rfl⟩
abbrev main_call6_v12 : Ref sig .tc := ⟨.hbm, 177, rfl⟩
abbrev main_call6_v13 : Ref sig .tc := ⟨.hbm, 178, rfl⟩
abbrev main_call6_v14 : Ref sig .tc := ⟨.hbm, 179, rfl⟩
abbrev main_call6_cst : Ref sig .tc := ⟨.hbm, 180, rfl⟩
abbrev main_call6_v15 : Ref sig .tc := ⟨.hbm, 181, rfl⟩
abbrev main_v15 : Ref sig .tc := ⟨.hbm, 182, rfl⟩
abbrev main_v16 : Ref sig .tc := ⟨.hbm, 183, rfl⟩
abbrev main_cst_0 : Ref sig .tc := ⟨.hbm, 184, rfl⟩
abbrev main_v17 : Ref sig .tc := ⟨.hbm, 185, rfl⟩
abbrev main_v18 : Ref sig .tc := ⟨.hbm, 186, rfl⟩
abbrev main_v19_0 : Ref sig .tc := ⟨.hbm, 187, rfl⟩
abbrev main_v19_1 : Ref sig .tc := ⟨.hbm, 188, rfl⟩
abbrev main_v19_2 : Ref sig .tc := ⟨.hbm, 189, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S4096x2_S4096x1_0_0 : S4096x2.Slices ![0, 0] S4096x1
  shapeCasts_S4096x1_S4096 : S4096x1.ShapeCasts S4096
  slices_S4096x2_S4096x1_0_1 : S4096x2.Slices ![0, 1] S4096x1
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x128_0 : S4096.BroadcastsInDim S4096x128 (![0] : Fin 1 → Fin S4096x128.rank)
  bcast_S_S4096x128 : S_.BroadcastsInDim S4096x128 (![] : Fin 0 → Fin S4096x128.rank)
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  bcast_S_S4096x64x1 : S_.BroadcastsInDim S4096x64x1 (![] : Fin 0 → Fin S4096x64x1.rank)
  bcast_S1_S1x1x1_2 : S1.BroadcastsInDim S1x1x1 (![2] : Fin 1 → Fin S1x1x1.rank)
  bcast_S1x1x1_S4096x64x1_0_1_2 : S1x1x1.BroadcastsInDim S4096x64x1 (![0, 1, 2] : Fin 3 → Fin S4096x64x1.rank)
  reducesTo_S4096x64x1_S4096x64_d2 : S4096x64x1.ReducesTo [2] S4096x64
  bcast_S4096x64_S4096x64x128_0_1 : S4096x64.BroadcastsInDim S4096x64x128 (![0, 1] : Fin 2 → Fin S4096x64x128.rank)
  bcast_S_S4096x64x128 : S_.BroadcastsInDim S4096x64x128 (![] : Fin 0 → Fin S4096x64x128.rank)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S128x128_S128 : S128x128.Reduces [1] S128
  inb_S128_S128_0 : ∀ a, (![0] : Fin 1 → Nat) a + S128.size a ≤ S128.size a
  h_S128 : 0 < S128.numel
  inb_S128x64x128_S128x64x128_0_0_0 : ∀ a, (![0, 0, 0] : Fin 3 → Nat) a + S128x64x128.size a ≤ S128x64x128.size a
  h_S128x64x128 : 0 < S128x64x128.numel
  shapeCasts_S128x64x128_S128x64x128 : S128x64x128.ShapeCasts S128x64x128
  shapeCasts_S128x128_S128x1x128 : S128x128.ShapeCasts S128x1x128
  broadcasts_S128x1x128_S128x64x128 : S128x1x128.Broadcasts S128x64x128
  reduces_S128x64x128_S128x64 : S128x64x128.Reduces [2] S128x64
  inb_S128x64_S128x64_0_0 : ∀ a, (![0, 0] : Fin 2 → Nat) a + S128x64.size a ≤ S128x64.size a
  h_S128x64 : 0 < S128x64.numel
  reduces_S128x64_S128 : S128x64.Reduces [1] S128
  gather_S100000x128_S4096x1_S4096x128_1_0_n_n_0_1_1128_wf : GatherDims.WF S100000x128 S4096x1 S4096x128 [1] [0] [] [0] [] 1 ![1, 128]
  gather_S500000x128_S4096x1_S4096x128_1_0_n_n_0_1_1128_wf : GatherDims.WF S500000x128 S4096x1 S4096x128 [1] [0] [] [0] [] 1 ![1, 128]
  gather_S200000x128_S4096x1_S4096x128_1_0_n_n_0_1_1128_wf : GatherDims.WF S200000x128 S4096x1 S4096x128 [1] [0] [] [0] [] 1 ![1, 128]
  gather_S500000x128_S4096x64x1_S4096x64x128_2_0_n_n_0_2_1128_wf : GatherDims.WF S500000x128 S4096x64x1 S4096x64x128 [2] [0] [] [0] [] 2 ![1, 128]
  gather_S100000x128_S4096x64x1_S4096x64x128_2_0_n_n_0_2_1128_wf : GatherDims.WF S100000x128 S4096x64x1 S4096x64x128 [2] [0] [] [0] [] 2 ![1, 128]
  gather_S200000x128_S4096x64x1_S4096x64x128_2_0_n_n_0_2_1128_wf : GatherDims.WF S200000x128 S4096x64x1 S4096x64x128 [2] [0] [] [0] [] 2 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S4096x128.size a
  hwx0_0 : ∀ i : grid0.Coords, EltTy.bits .f32 = 32 ∨ (Rect.block (s := S4096x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S4096x128.size a
  hwx0_1 : ∀ i : grid0.Coords, EltTy.bits .f32 = 32 ∨ (Rect.block (s := S4096x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64x128.size a ≤ S4096x64x128.size a
  hwx0_2 : ∀ i : grid0.Coords, EltTy.bits .f32 = 32 ∨ (Rect.block (s := S4096x64x128) S128x64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S4096.size a
  hwx0_3 : ∀ i : grid0.Coords, EltTy.bits .f32 = 32 ∨ (Rect.block (s := S4096) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S4096x64.size a
  hwx0_4 : ∀ i : grid0.Coords, EltTy.bits .f32 = 32 ∨ (Rect.block (s := S4096x64) S128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S4096.size a
  hwx0_5 : ∀ i : grid0.Coords, EltTy.bits .f32 = 32 ∨ (Rect.block (s := S4096) S128.size (cc0_transform_5 i) (hinb0_5 i)).WholeWords (EltTy.packing .f32)

variable [Facts₀]

def gather_S100000x128_S4096x1_S4096x128_1_0_n_n_0_1_1128 : GatherDims S100000x128 S4096x1 S4096x128 where
  offsetDims := [1]
  collapsedSliceDims := [0]
  operandBatchingDims := []
  startIndicesBatchingDims := []
  startIndexMap := [0]
  indexVectorDim := 1
  sliceSizes := ![1, 128]
  wf := gather_S100000x128_S4096x1_S4096x128_1_0_n_n_0_1_1128_wf
def gather_S500000x128_S4096x1_S4096x128_1_0_n_n_0_1_1128 : GatherDims S500000x128 S4096x1 S4096x128 where
  offsetDims := [1]
  collapsedSliceDims := [0]
  operandBatchingDims := []
  startIndicesBatchingDims := []
  startIndexMap := [0]
  indexVectorDim := 1
  sliceSizes := ![1, 128]
  wf := gather_S500000x128_S4096x1_S4096x128_1_0_n_n_0_1_1128_wf
def gather_S200000x128_S4096x1_S4096x128_1_0_n_n_0_1_1128 : GatherDims S200000x128 S4096x1 S4096x128 where
  offsetDims := [1]
  collapsedSliceDims := [0]
  operandBatchingDims := []
  startIndicesBatchingDims := []
  startIndexMap := [0]
  indexVectorDim := 1
  sliceSizes := ![1, 128]
  wf := gather_S200000x128_S4096x1_S4096x128_1_0_n_n_0_1_1128_wf
def gather_S500000x128_S4096x64x1_S4096x64x128_2_0_n_n_0_2_1128 : GatherDims S500000x128 S4096x64x1 S4096x64x128 where
  offsetDims := [2]
  collapsedSliceDims := [0]
  operandBatchingDims := []
  startIndicesBatchingDims := []
  startIndexMap := [0]
  indexVectorDim := 2
  sliceSizes := ![1, 128]
  wf := gather_S500000x128_S4096x64x1_S4096x64x128_2_0_n_n_0_2_1128_wf
def gather_S100000x128_S4096x64x1_S4096x64x128_2_0_n_n_0_2_1128 : GatherDims S100000x128 S4096x64x1 S4096x64x128 where
  offsetDims := [2]
  collapsedSliceDims := [0]
  operandBatchingDims := []
  startIndicesBatchingDims := []
  startIndexMap := [0]
  indexVectorDim := 2
  sliceSizes := ![1, 128]
  wf := gather_S100000x128_S4096x64x1_S4096x64x128_2_0_n_n_0_2_1128_wf
def gather_S200000x128_S4096x64x1_S4096x64x128_2_0_n_n_0_2_1128 : GatherDims S200000x128 S4096x64x1 S4096x64x128 where
  offsetDims := [2]
  collapsedSliceDims := [0]
  operandBatchingDims := []
  startIndicesBatchingDims := []
  startIndexMap := [0]
  indexVectorDim := 2
  sliceSizes := ![1, 128]
  wf := gather_S200000x128_S4096x64x1_S4096x64x128_2_0_n_n_0_2_1128_wf

abbrev win0_0 : Pipeline.Window sig grid0 :=
  Pipeline.Window.ofSpec (Memref.whole main_v4) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19_0) S128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19_1) S128x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19_2) S128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x2 : Shape := ⟨2, ![4096, 2]⟩
abbrev S4096 : Shape := ⟨1, ![4096]⟩
abbrev S4096x64 : Shape := ⟨2, ![4096, 64]⟩
abbrev S4096x1 : Shape := ⟨2, ![4096, 1]⟩
abbrev S100000x128 : Shape := ⟨2, ![100000, 128]⟩
abbrev S500000x128 : Shape := ⟨2, ![500000, 128]⟩
abbrev S200000x128 : Shape := ⟨2, ![200000, 128]⟩
abbrev S_ : Shape := ⟨0, ![]⟩
abbrev S4096x128 : Shape := ⟨2, ![4096, 128]⟩
abbrev S4096x64x1 : Shape := ⟨3, ![4096, 64, 1]⟩
abbrev S4096x64x128 : Shape := ⟨3, ![4096, 64, 128]⟩
abbrev S4096x1x128 : Shape := ⟨3, ![4096, 1, 128]⟩

abbrev nBuf : Space → Nat
  | .hbm => 101
  | .vmem => 0
  | .smem => 0
  | _ => 0

abbrev bufTy : (tb : Table) → Fin (tcTables nBuf tb) → BufTy
  | .hbm, ⟨0, _⟩ => ⟨S4096x2, .i32⟩
  | .hbm, ⟨1, _⟩ => ⟨S4096, .i32⟩
  | .hbm, ⟨2, _⟩ => ⟨S4096, .i32⟩
  | .hbm, ⟨3, _⟩ => ⟨S4096x64, .i32⟩
  | .hbm, ⟨4, _⟩ => ⟨S4096x64, .i32⟩
  | .hbm, ⟨5, _⟩ => ⟨S4096x64, .i32⟩
  | .hbm, ⟨6, _⟩ => ⟨S4096x1, .i32⟩
  | .hbm, ⟨7, _⟩ => ⟨S4096, .i32⟩
  | .hbm, ⟨8, _⟩ => ⟨S100000x128, .f32⟩
  | .hbm, ⟨9, _⟩ => ⟨S500000x128, .f32⟩
  | .hbm, ⟨10, _⟩ => ⟨S100000x128, .f32⟩
  | .hbm, ⟨11, _⟩ => ⟨S200000x128, .f32⟩
  | .hbm, ⟨12, _⟩ => ⟨S4096x1, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .i32⟩
  | .hbm, ⟨21, _⟩ => ⟨S4096x1, .i32⟩
  | .hbm, ⟨22, _⟩ => ⟨S4096x128, .f32⟩
  | .hbm, ⟨23, _⟩ => ⟨S4096x1, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S4096x1, .i32⟩
  | .hbm, ⟨33, _⟩ => ⟨S4096x128, .f32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S4096x1, .i32⟩
  | .hbm, ⟨42, _⟩ => ⟨S4096x128, .f32⟩
  | .hbm, ⟨43, _⟩ => ⟨S4096x128, .f32⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S4096x1, .i32⟩
  | .hbm, ⟨52, _⟩ => ⟨S4096x128, .f32⟩
  | .hbm, ⟨53, _⟩ => ⟨S4096x128, .f32⟩
  | .hbm, ⟨54, _⟩ => ⟨S_, .f32⟩
  | .hbm, ⟨55, _⟩ => ⟨S4096x128, .f32⟩
  | .hbm, ⟨56, _⟩ => ⟨S4096x128, .f32⟩
  | .hbm, ⟨57, _⟩ => ⟨S4096x128, .f32⟩
  | .hbm, ⟨58, _⟩ => ⟨S4096x128, .f32⟩
  | .hbm, ⟨59, _⟩ => ⟨S_, .f32⟩
  | .hbm, ⟨60, _⟩ => ⟨S4096, .f32⟩
  | .hbm, ⟨61, _⟩ => ⟨S_, .i32⟩
  | .hbm, ⟨62, _⟩ => ⟨S4096x64, .i32⟩
  | .hbm, ⟨63, _⟩ => ⟨S4096x64, .i1⟩
  | .hbm, ⟨64, _⟩ => ⟨S_, .i32⟩
  | .hbm, ⟨65, _⟩ => ⟨S4096x64, .i32⟩
  | .hbm, ⟨66, _⟩ => ⟨S4096x64, .i32⟩
  | .hbm, ⟨67, _⟩ => ⟨S4096x64, .i32⟩
  | .hbm, ⟨68, _⟩ => ⟨S4096x64x1, .i32⟩
  | .hbm, ⟨69, _⟩ => ⟨S4096x64x128, .f32⟩
  | .hbm, ⟨70, _⟩ => ⟨S_, .i32⟩
  | .hbm, ⟨71, _⟩ => ⟨S4096x64, .i32⟩
  | .hbm, ⟨72, _⟩ => ⟨S4096x64, .i1⟩
  | .hbm, ⟨73, _⟩ => ⟨S_, .i32⟩
  | .hbm, ⟨74, _⟩ => ⟨S4096x64, .i32⟩
  | .hbm, ⟨75, _⟩ => ⟨S4096x64, .i32⟩
  | .hbm, ⟨76, _⟩ => ⟨S4096x64, .i32⟩
  | .hbm, ⟨77, _⟩ => ⟨S4096x64x1, .i32⟩
  | .hbm, ⟨78, _⟩ => ⟨S4096x64x128, .f32⟩
  | .hbm, ⟨79, _⟩ => ⟨S4096x64x128, .f32⟩
  | .hbm, ⟨80, _⟩ => ⟨S_, .i32⟩
  | .hbm, ⟨81, _⟩ => ⟨S4096x64, .i32⟩
  | .hbm, ⟨82, _⟩ => ⟨S4096x64, .i1⟩
  | .hbm, ⟨83, _⟩ => ⟨S_, .i32⟩
  | .hbm, ⟨84, _⟩ => ⟨S4096x64, .i32⟩
  | .hbm, ⟨85, _⟩ => ⟨S4096x64, .i32⟩
  | .hbm, ⟨86, _⟩ => ⟨S4096x64, .i32⟩
  | .hbm, ⟨87, _⟩ => ⟨S4096x64x1, .i32⟩
  | .hbm, ⟨88, _⟩ => ⟨S4096x64x128, .f32⟩
  | .hbm, ⟨89, _⟩ => ⟨S4096x64x128, .f32⟩
  | .hbm, ⟨90, _⟩ => ⟨S_, .f32⟩
  | .hbm, ⟨91, _⟩ => ⟨S4096x64x128, .f32⟩
  | .hbm, ⟨92, _⟩ => ⟨S4096x64x128, .f32⟩
  | .hbm, ⟨93, _⟩ => ⟨S4096x1x128, .f32⟩
  | .hbm, ⟨94, _⟩ => ⟨S4096x64x128, .f32⟩
  | .hbm, ⟨95, _⟩ => ⟨S4096x64x128, .f32⟩
  | .hbm, ⟨96, _⟩ => ⟨S4096x64x128, .f32⟩
  | .hbm, ⟨97, _⟩ => ⟨S_, .f32⟩
  | .hbm, ⟨98, _⟩ => ⟨S4096x64, .f32⟩
  | .hbm, ⟨99, _⟩ => ⟨S_, .f32⟩
  | .hbm, ⟨100, _⟩ => ⟨S4096, .f32⟩
  | _, _ => ⟨S4096x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_10 : Ref sig .tc := ⟨.hbm, 70, rfl⟩
abbrev main_v46 : Ref sig .tc := ⟨.hbm, 71, rfl⟩
abbrev main_v47 : Ref sig .tc := ⟨.hbm, 72, rfl⟩
abbrev main_c_11 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_12 : Ref sig .tc := ⟨.hbm, 80, rfl⟩
abbrev main_v54 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_15 : Ref sig .tc := ⟨.hbm, 97, rfl⟩
abbrev main_v68 : Ref sig .tc := ⟨.hbm, 98, rfl⟩
abbrev main_cst_16 : Ref sig .tc := ⟨.hbm, 99, rfl⟩
abbrev main_v69 : Ref sig .tc := ⟨.hbm, 100, rfl⟩

abbrev nD : Nat := 1
abbrev τ : Topo := Topo.v7x

variable {F : FTy → Type} [FloatOps F]

class Facts₀ : Prop where
  slices_S4096x2_S4096x1_0_0 : S4096x2.Slices ![0, 0] S4096x1
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  slices_S4096x2_S4096x1_0_1 : S4096x2.Slices ![0, 1] S4096x1
  bcast_S_S4096x128 : S_.BroadcastsInDim S4096x128 (![] : Fin 0 → Fin S4096x128.rank)
  reducesTo_S4096x128_S4096_d1 : S4096x128.ReducesTo [1] S4096
  h_S_ : 0 < S_.numel
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  bcast_S_S4096x64x128 : S_.BroadcastsInDim S4096x64x128 (![] : Fin 0 → Fin S4096x64x128.rank)
  bcast_S4096x128_S4096x1x128_0_2 : S4096x128.BroadcastsInDim S4096x1x128 (![0, 2] : Fin 2 → Fin S4096x1x128.rank)
  bcast_S4096x1x128_S4096x64x128_0_1_2 : S4096x1x128.BroadcastsInDim S4096x64x128 (![0, 1, 2] : Fin 3 → Fin S4096x64x128.rank)
  reducesTo_S4096x64x128_S4096x64_d2 : S4096x64x128.ReducesTo [2] S4096x64
  reducesTo_S4096x64_S4096_d1 : S4096x64.ReducesTo [1] S4096
  gather_S100000x128_S4096x1_S4096x128_1_0_n_n_0_1_1128_wf : GatherDims.WF S100000x128 S4096x1 S4096x128 [1] [0] [] [0] [] 1 ![1, 128]
  gather_S500000x128_S4096x1_S4096x128_1_0_n_n_0_1_1128_wf : GatherDims.WF S500000x128 S4096x1 S4096x128 [1] [0] [] [0] [] 1 ![1, 128]
  gather_S200000x128_S4096x1_S4096x128_1_0_n_n_0_1_1128_wf : GatherDims.WF S200000x128 S4096x1 S4096x128 [1] [0] [] [0] [] 1 ![1, 128]
  gather_S500000x128_S4096x64x1_S4096x64x128_2_0_n_n_0_2_1128_wf : GatherDims.WF S500000x128 S4096x64x1 S4096x64x128 [2] [0] [] [0] [] 2 ![1, 128]
  gather_S100000x128_S4096x64x1_S4096x64x128_2_0_n_n_0_2_1128_wf : GatherDims.WF S100000x128 S4096x64x1 S4096x64x128 [2] [0] [] [0] [] 2 ![1, 128]
  gather_S200000x128_S4096x64x1_S4096x64x128_2_0_n_n_0_2_1128_wf : GatherDims.WF S200000x128 S4096x64x1 S4096x64x128 [2] [0] [] [0] [] 2 ![1, 128]

variable [Facts₀]

def gather_S100000x128_S4096x1_S4096x128_1_0_n_n_0_1_1128 : GatherDims S100000x128 S4096x1 S4096x128 where
  offsetDims := [1]
  collapsedSliceDims := [0]
  operandBatchingDims := []
  startIndicesBatchingDims := []
  startIndexMap := [0]
  indexVectorDim := 1
  sliceSizes := ![1, 128]
  wf := gather_S100000x128_S4096x1_S4096x128_1_0_n_n_0_1_1128_wf
def gather_S500000x128_S4096x1_S4096x128_1_0_n_n_0_1_1128 : GatherDims S500000x128 S4096x1 S4096x128 where
  offsetDims := [1]
  collapsedSliceDims := [0]
  operandBatchingDims := []
  startIndicesBatchingDims := []
  startIndexMap := [0]
  indexVectorDim := 1
  sliceSizes := ![1, 128]
  wf := gather_S500000x128_S4096x1_S4096x128_1_0_n_n_0_1_1128_wf
def gather_S200000x128_S4096x1_S4096x128_1_0_n_n_0_1_1128 : GatherDims S200000x128 S4096x1 S4096x128 where
  offsetDims := [1]
  collapsedSliceDims := [0]
  operandBatchingDims := []
  startIndicesBatchingDims := []
  startIndexMap := [0]
  indexVectorDim := 1
  sliceSizes := ![1, 128]
  wf := gather_S200000x128_S4096x1_S4096x128_1_0_n_n_0_1_1128_wf
def gather_S500000x128_S4096x64x1_S4096x64x128_2_0_n_n_0_2_1128 : GatherDims S500000x128 S4096x64x1 S4096x64x128 where
  offsetDims := [2]
  collapsedSliceDims := [0]
  operandBatchingDims := []
  startIndicesBatchingDims := []
  startIndexMap := [0]
  indexVectorDim := 2
  sliceSizes := ![1, 128]
  wf := gather_S500000x128_S4096x64x1_S4096x64x128_2_0_n_n_0_2_1128_wf
def gather_S100000x128_S4096x64x1_S4096x64x128_2_0_n_n_0_2_1128 : GatherDims S100000x128 S4096x64x1 S4096x64x128 where
  offsetDims := [2]
  collapsedSliceDims := [0]
  operandBatchingDims := []
  startIndicesBatchingDims := []
  startIndexMap := [0]
  indexVectorDim := 2
  sliceSizes := ![1, 128]
  wf := gather_S100000x128_S4096x64x1_S4096x64x128_2_0_n_n_0_2_1128_wf
def gather_S200000x128_S4096x64x1_S4096x64x128_2_0_n_n_0_2_1128 : GatherDims S200000x128 S4096x64x1 S4096x64x128 where
  offsetDims := [2]
  collapsedSliceDims := [0]
  operandBatchingDims := []
  startIndicesBatchingDims := []
  startIndexMap := [0]
  indexVectorDim := 2
  sliceSizes := ![1, 128]
  wf := gather_S200000x128_S4096x64x1_S4096x64x128_2_0_n_n_0_2_1128_wf

class Facts : Prop extends Facts₀ where

variable [Facts]
-- ==== Proof.Spec.lean ====
/-
  The function both programs compute, written once over three intermediate arrays: the user rows `U` (one
  128-vector per example), the combined positive item rows `P` (one per example) and the combined negative item
  rows `Nn` (64 per example).

    posDist U P      b     = ∑_d (U[b,d] − P[b,d])²            the squared distance to the positive item
    negDist U Nn     (b,k) = ∑_d (U[b,d] − Nn[b,k,d])²         the squared distance to the k-th negative item
    closest U Nn     b     = min_k negDist U Nn (b,k)          the nearest negative, the minimum taken from +∞

  Everything is over the extended reals; subtraction, product and sum are the exact ones, and the minimum starts
  from the value of the f32 word 0x7F800000, which is never evaluated here: both programs carry the same word.
-/
import Idealize.ShloMosaic.PureOps.Ideal
import Idealize.ShloMosaic.Lib.ValueIdx

noncomputable section

namespace Cert.Retrieval

open Idealize.ShloMosaic Idealize.ShloMosaic.ValueIdx

/-- One entry per example. -/
abbrev SRows : Shape := ⟨1, ![4096]⟩
/-- One 128-vector per example. -/
abbrev SEmb : Shape := ⟨2, ![4096, 128]⟩
/-- 64 negatives per example, one 128-vector each. -/
abbrev SNeg : Shape := ⟨3, ![4096, 64, 128]⟩
/-- One entry per example and negative. -/
abbrev SPair : Shape := ⟨2, ![4096, 64]⟩

/-- Squared distance between row `b` of `U` and row `b` of `P`. -/
def posDistAt (U P : SEmb.Idx → EReal) (b : Fin 4096) : EReal :=
  ∑ d : Fin 128, (U (ix2 b d) - P (ix2 b d)) * (U (ix2 b d) - P (ix2 b d))

/-- Squared distance between row `b` of `U` and the `k`-th negative row of example `b`. -/
def negDistAt (U : SEmb.Idx → EReal) (Nn : SNeg.Idx → EReal) (b : Fin 4096) (k : Fin 64) : EReal :=
  ∑ d : Fin 128, (U (ix2 b d) - Nn (ix3 b k d)) * (U (ix2 b d) - Nn (ix3 b k d))

/-- The least of example `b`'s 64 squared distances to its negatives, the minimum started at the value of the
    word 0x7F800000. -/
def closestAt (U : SEmb.Idx → EReal) (Nn : SNeg.Idx → EReal) (b : Fin 4096) : EReal :=
  (Finset.univ : Finset (Fin 64)).fold min (Ideal.ofBits .f32 0x7F800000#32) (fun k => negDistAt U Nn b k)

/-- The three results as whole arrays. -/
def posDist (U P : SEmb.Idx → EReal) : SRows.Idx → EReal := fun i => posDistAt U P (i 0)
def negDist (U : SEmb.Idx → EReal) (Nn : SNeg.Idx → EReal) : SPair.Idx → EReal := fun i => negDistAt U Nn (i 0) (i 1)
def closest (U : SEmb.Idx → EReal) (Nn : SNeg.Idx → EReal) : SRows.Idx → EReal := fun i => closestAt U Nn (i 0)

end Cert.Retrieval

end
-- ==== Proof.Ranges.lean ====
/-
  The evident domain of the seven index inputs: every entry is a row index that NumPy-style indexing of an
  n-row table accepts, −n ≤ x < n as a signed 32-bit word. Inside this range the wrapped index
  (x + n when x < 0, else x) lies in [0, n − 1]; outside it the reference indexes out of range.
-/
import Idealize.ShloMosaic.PureOps
import Idealize.ShloMosaic.Lib.ValueIdx

namespace Cert.Retrieval

open Idealize.ShloMosaic Idealize.ShloMosaic.ValueIdx

/-- The signed word `x` is a valid row index of an `n`-row table: −n ≤ x < n. -/
def ValidRow (n : Int) (x : BitVec 32) : Prop := -n ≤ x.toInt ∧ x.toInt < n

/-- Every index input is in the range of the table it indexes: the user and item columns of the pair array,
    the positive artists and albums, and the negative items, artists and albums. -/
structure Ranges (pairs : (⟨2, ![4096, 2]⟩ : Shape).Idx → BitVec 32)
    (posArtists posAlbums : (⟨1, ![4096]⟩ : Shape).Idx → BitVec 32)
    (negItems negArtists negAlbums : (⟨2, ![4096, 64]⟩ : Shape).Idx → BitVec 32) : Prop where
  users : ∀ b : Fin 4096, ValidRow 100000 (pairs (ix2 b (0 : Fin 2)))
  items : ∀ b : Fin 4096, ValidRow 500000 (pairs (ix2 b (1 : Fin 2)))
  posArtists : ∀ b : Fin 4096, ValidRow 100000 (posArtists (ix1 b))
  posAlbums : ∀ b : Fin 4096, ValidRow 200000 (posAlbums (ix1 b))
  negItems : ∀ (b : Fin 4096) (k : Fin 64), ValidRow 500000 (negItems (ix2 b k))
  negArtists : ∀ (b : Fin 4096) (k : Fin 64), ValidRow 100000 (negArtists (ix2 b k))
  negAlbums : ∀ (b : Fin 4096) (k : Fin 64), ValidRow 200000 (negAlbums (ix2 b k))

end Cert.Retrieval
-- ==== Proof.RangesOfPre.lean ====
/-
  The precondition, as printed, gives the index ranges. The printed predicate is a conjunction of eleven
  all-reductions: four say every float table entry is finite, seven say every entry x of an index input
  satisfies (x ≥ −n) ∧ (x < n) as signed words, for the n of the table it indexes (the user and item
  columns of the pair array are read through a slice and a reshape). If the conjunction is all ones, each
  all-reduction is, so each compared entry passes both signed comparisons.
-/
import proofs.«415283_j85383949844517_2_alg».proof.Pre_finite_inputs
import proofs.«415283_j85383949844517_2_alg».proof.Proof.Ranges
import Idealize.ShloMosaic.Lib.ValueIdx
import Idealize.ShloMosaic.Lib.ReduceAll
import Idealize.ShloMosaic.Lib.StableHlo.Predicate
import Idealize.ShloMosaic.Lib.Pipeline.Value

noncomputable section

namespace Cert.Retrieval

open Cert.Pre_finite_inputs Idealize.ShloMosaic Idealize.ShloMosaic.ValueIdx

variable [Cert.Pre_finite_inputs.Facts]

/-- The scalar shape has one index. -/
instance subsingleton_scalar_idx : Subsingleton S_.Idx := ⟨fun a b => funext fun d => d.elim0⟩

/-- A word passing both signed comparisons, against words that read −n and n, is a valid row of an n-row table. -/
theorem validRow_of_cmp (x c₁ c₂ : BitVec 32) (n : Int) (h1 : c₁.toInt = -n) (h2 : c₂.toInt = n)
    (h : IntOp.andi (IntOp.cmpi .sge x c₁) (IntOp.cmpi .slt x c₂) = 1#1) : ValidRow n x := by
  obtain ⟨hge, hlt⟩ := IntOp.andi_eq_one.1 h
  unfold IntOp.cmpi at hge hlt
  simp only [StableHlo.Predicate.ofBool_eq_one_iff, BitVec.sle, BitVec.slt, decide_eq_true_eq] at hge hlt
  exact ⟨h1 ▸ hge, h2 ▸ hlt⟩

/-- If the all-reduction of (X ≥ c₁) ∧ (X < c₂) is one, every entry of X is a valid row. -/
theorem validRow_of_reduce {s : Shape} {axes : List (Fin s.rank)} (X : IVec s 32) (c₁ c₂ : BitVec 32)
    (hb : S_.BroadcastsInDim s (![] : Fin 0 → Fin s.rank)) (hr : s.ReducesTo axes S_) (h0 : 0 < S_.numel)
    (n : Int) (h1 : c₁.toInt = -n) (h2 : c₂.toInt = n)
    (h : Host.reduce IntOp.andi
          (andi (cmpi .sge X (broadcastInDim s ![] hb (constantI S_ 32 c₁)))
                (cmpi .slt X (broadcastInDim s ![] hb (constantI S_ 32 c₂))))
          (constantI S_ 1 1#1) hr h0 ix0 = 1#1)
    (i : s.Idx) : ValidRow n (X i) := by
  have e := Host.reduce_andi_all _ _ hr h0 ix0 h i
  exact validRow_of_cmp (X i) c₁ c₂ n h1 h2 e

/-- A conjunction of two scalars is one only where both are. -/
theorem andi_scalar_eq_one (A B : IVec S_ 1) (h : andi A B ix0 = 1#1) : A ix0 = 1#1 ∧ B ix0 = 1#1 :=
  IntOp.andi_eq_one.1 h

/-- Column 0 of the pair array, sliced out and flattened, read at b is the pair array at (b, 0). -/
theorem read_col0 (a0 : IVec S4096x2 32) (hs : S4096x2.Slices ![0, 0] S4096x1) (hc : S4096x1.ShapeCasts S4096) (b : Fin 4096) :
    shapeCast S4096 (extractStridedSlice S4096x1 ![0, 0] a0 hs) hc (ix1 b) = a0 (ix2 b (0 : Fin 2)) := by
  refine (shapeCast_apply _ hc (ix1 b) (ix2 b (0 : Fin 1)) ?_).trans ?_
  · rw [Shape.rowMajor_val_two, Shape.rowMajor_val_one]; show b.val * 1 + 0 = b.val; omega
  · exact extractStridedSlice_apply ![0, 0] a0 hs (ix2 b (0 : Fin 1)) (ix2 b (0 : Fin 2)) (fun a => match a with
      | ⟨0, _⟩ => by show b.val = 0 + b.val; omega
      | ⟨1, _⟩ => by show 0 = 0 + 0; rfl)

/-- Column 1 of the pair array, sliced out and flattened, read at b is the pair array at (b, 1). -/
theorem read_col1 (a0 : IVec S4096x2 32) (hs : S4096x2.Slices ![0, 1] S4096x1) (hc : S4096x1.ShapeCasts S4096) (b : Fin 4096) :
    shapeCast S4096 (extractStridedSlice S4096x1 ![0, 1] a0 hs) hc (ix1 b) = a0 (ix2 b (1 : Fin 2)) := by
  refine (shapeCast_apply _ hc (ix1 b) (ix2 b (0 : Fin 1)) ?_).trans ?_
  · rw [Shape.rowMajor_val_two, Shape.rowMajor_val_one]; show b.val * 1 + 0 = b.val; omega
  · exact extractStridedSlice_apply ![0, 1] a0 hs (ix2 b (0 : Fin 1)) (ix2 b (1 : Fin 2)) (fun a => match a with
      | ⟨0, _⟩ => by show b.val = 0 + b.val; omega
      | ⟨1, _⟩ => by show 1 = 1 + 0; rfl)

/-- Where the printed precondition is all ones, every index input is in the range of its table. -/
theorem ranges_of_pre {F : FTy → Type} [FloatOps F]
    (a0 : IVec S4096x2 32) (a1 a2 : IVec S4096 32) (a3 a4 a5 : IVec S4096x64 32) (a6 : IVec S4096x1 32) (a7 : IVec S4096 32)
    (w8 : FVec F S100000x128 .f32) (w9 : FVec F S500000x128 .f32) (w10 : FVec F S100000x128 .f32) (w11 : FVec F S200000x128 .f32)
    (h : Cert.Pre_finite_inputs.fn (F := F) a0 a1 a2 a3 a4 a5 a6 a7 w8 w9 w10 w11 = (fun _ => 1#1)) :
    Ranges a0 a1 a2 a3 a4 a5 := by
  have h0 := congrFun h ix0
  dsimp only [fn, fn_part1, fn_part2, fn_part3, fn_part4] at h0
  obtain ⟨h0, rNegAlbums⟩ := andi_scalar_eq_one _ _ h0
  obtain ⟨h0, rNegArtists⟩ := andi_scalar_eq_one _ _ h0
  obtain ⟨h0, rNegItems⟩ := andi_scalar_eq_one _ _ h0
  obtain ⟨h0, rPosAlbums⟩ := andi_scalar_eq_one _ _ h0
  obtain ⟨h0, rPosArtists⟩ := andi_scalar_eq_one _ _ h0
  obtain ⟨h0, rItems⟩ := andi_scalar_eq_one _ _ h0
  obtain ⟨h0, rUsers⟩ := andi_scalar_eq_one _ _ h0
  have m100 : (4294867296#32 : BitVec 32).toInt = -100000 := by decide
  have p100 : (100000#32 : BitVec 32).toInt = 100000 := by decide
  have m200 : (4294767296#32 : BitVec 32).toInt = -200000 := by decide
  have p200 : (200000#32 : BitVec 32).toInt = 200000 := by decide
  have m500 : (4294467296#32 : BitVec 32).toInt = -500000 := by decide
  have p500 : (500000#32 : BitVec 32).toInt = 500000 := by decide
  refine ⟨?_, ?_, ?_, ?_, ?_, ?_, ?_⟩
  · intro b
    have e := validRow_of_reduce _ _ _ _ _ _ 100000 m100 p100 rUsers (ix1 b)
    rw [read_col0] at e
    exact e
  · intro b
    have e := validRow_of_reduce _ _ _ _ _ _ 500000 m500 p500 rItems (ix1 b)
    rw [read_col1] at e
    exact e
  · exact fun b => validRow_of_reduce a1 _ _ _ _ _ 100000 m100 p100 rPosArtists (ix1 b)
  · exact fun b => validRow_of_reduce a2 _ _ _ _ _ 200000 m200 p200 rPosAlbums (ix1 b)
  · exact fun b k => validRow_of_reduce a3 _ _ _ _ _ 500000 m500 p500 rNegItems (ix2 b k)
  · exact fun b k => validRow_of_reduce a4 _ _ _ _ _ 100000 m100 p100 rNegArtists (ix2 b k)
  · exact fun b k => validRow_of_reduce a5 _ _ _ _ _ 200000 m200 p200 rNegAlbums (ix2 b k)

end Cert.Retrieval

end
-- ==== Proof.HostBridge.lean ====
/-
  The three arrays the kernel's pallas_call is launched on are the reference's corresponding stages, when every
  index input is in the range of its table.

  The kernel's wrapper takes rows with the fill convention: it wraps a negative index (x + n when x < 0),
  gathers the row at the wrapped index, tests 0 ≤ wrapped ≤ n − 1, and where the test fails replaces the row by
  the word 0x7FC00000. The reference wraps the index the same way and gathers, with no test. For −n ≤ x < n the
  wrapped index is in [0, n − 1], the test holds at every entry, the replacement is never taken, and the two
  rows are one gather. The sums of three takes and the division by 3 are the same operations in both programs.
-/
import proofs.«415283_j85383949844517_2_alg».proof.Proof.Gen.KernelIdeal.Frame
import proofs.«415283_j85383949844517_2_alg».proof.Proof.Gen.ReferenceIdeal.Read
import proofs.«415283_j85383949844517_2_alg».proof.Proof.Spec
import proofs.«415283_j85383949844517_2_alg».proof.Proof.Ranges
import Idealize.ShloMosaic.Lib.ValueIdx
import Idealize.ShloMosaic.Lib.StableHlo.Run
import Idealize.ShloMosaic.Lib.StableHlo.Predicate

set_option maxRecDepth 16384

noncomputable section

namespace Cert.Retrieval.HostBridge

open Cert.KernelIdeal Cert.KernelIdeal.Gen Idealize.ShloMosaic Idealize.ShloMosaic.TcCoe Idealize.SL.Sem
open Idealize.ShloMosaic.ValueIdx Cert.Retrieval

/-! ## General facts -/

/-- A select whose condition is 1 everywhere is its first operand. -/
theorem select_of_ones {s : Shape} {α : Type} (c : IVec s 1) (a b : s.Idx → α) (hc : ∀ i, c i = 1#1) : select c a b = a := by
  funext i
  rw [select_apply, hc i, select_one]

/-- A left fold by `and` from 1 over words that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], init, h, _ => h
  | a :: l, init, h, hl => by
    refine foldl_andi_ones f l _ ?_ (fun n hn => hl n (List.mem_cons_of_mem _ hn))
    show IntOp.andi init (f a) = 1#1
    rw [h, hl a (List.mem_cons_self ..)]; decide

/-- A reduction by `and` from 1 of an array that is 1 everywhere is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl]
  exact foldl_andi_ones x _ _ (hi _) (fun n _ => hx n)

/-- A broadcast of an array with one value everywhere has that value everywhere. -/
theorem broadcastInDim_of_const {s t : Shape} {α : Type} (dims : Fin s.rank → Fin t.rank) (h : s.BroadcastsInDim t dims)
    (x : s.Idx → α) (v : α) (hx : ∀ k, x k = v) (j : t.Idx) : broadcastInDim t dims h x j = v := by
  unfold broadcastInDim
  exact hx _

/-- A signed word in [−N, N), wrapped by adding N when negative, lies in [0, N − 1]: both range tests give 1. -/
theorem wrap_tests (N : Int) (hN : N < 2 ^ 31) (nn nm x : BitVec 32) (hn : nn.toInt = N) (hm : nm.toInt = N - 1)
    (hx : -N ≤ x.toInt ∧ x.toInt < N) :
    IntOp.andi (IntOp.cmpi .sge (Scalar.select (IntOp.cmpi .slt x 0#32) (IntOp.addi x nn) x) 0#32)
      (IntOp.cmpi .sle (Scalar.select (IntOp.cmpi .slt x 0#32) (IntOp.addi x nn) x) nm) = 1#1 := by
  have key : ∀ w : BitVec 32, 0 ≤ w.toInt → w.toInt ≤ N - 1 →
      IntOp.andi (IntOp.cmpi .sge w 0#32) (IntOp.cmpi .sle w nm) = 1#1 := by
    intro w h0 h1
    refine IntOp.andi_eq_one.2 ⟨?_, ?_⟩
    · show BitVec.ofBool ((0#32).sle w) = 1#1
      rw [StableHlo.Predicate.ofBool_eq_one_iff, BitVec.sle_iff_toInt_le, BitVec.toInt_zero]; exact h0
    · show BitVec.ofBool (w.sle nm) = 1#1
      rw [StableHlo.Predicate.ofBool_eq_one_iff, BitVec.sle_iff_toInt_le, hm]; exact h1
  by_cases hneg : x.toInt < 0
  · have hc : IntOp.cmpi .slt x 0#32 = 1#1 := by
      show BitVec.ofBool (x.slt 0#32) = 1#1
      rw [StableHlo.Predicate.ofBool_eq_one_iff, BitVec.slt_iff_toInt_lt, BitVec.toInt_zero]; exact hneg
    rw [hc, select_one]
    have hadd : (IntOp.addi x nn).toInt = x.toInt + N := by
      show (x + nn).toInt = _
      rw [BitVec.toInt_add, hn, Int.bmod_def]
      have := hx.1
      omega
    exact key _ (by rw [hadd]; omega) (by rw [hadd]; omega)
  · have hc : IntOp.cmpi .slt x 0#32 = 0#1 := by
      refine eq_zero_of_ne_one ?_
      show ¬ BitVec.ofBool (x.slt 0#32) = 1#1
      rw [StableHlo.Predicate.ofBool_eq_one_iff, BitVec.slt_iff_toInt_lt, BitVec.toInt_zero]; exact hneg
    rw [hc, select_zero]
    exact key _ (by omega) (by omega)

/-- The wrapped index column of a take passes both range tests at every entry, when every index is a valid row. -/
theorem wrapped_tests {s : Shape} (x Zs Ns : IVec s 32) (N : Int) (hN : N < 2 ^ 31) (nn nm : BitVec 32)
    (hn : nn.toInt = N) (hm : nm.toInt = N - 1) (hZ : ∀ k, Zs k = 0#32) (hNs : ∀ k, Ns k = nn)
    (hx : ∀ k, -N ≤ (x k).toInt ∧ (x k).toInt < N) (k : s.Idx) :
    IntOp.andi (IntOp.cmpi .sge (select (cmpi .slt x Zs) (addi x Ns) x k) 0#32)
      (IntOp.cmpi .sle (select (cmpi .slt x Zs) (addi x Ns) x k) nm) = 1#1 := by
  show IntOp.andi (IntOp.cmpi .sge (Scalar.select (IntOp.cmpi .slt (x k) (Zs k)) (IntOp.addi (x k) (Ns k)) (x k)) 0#32)
      (IntOp.cmpi .sle (Scalar.select (IntOp.cmpi .slt (x k) (Zs k)) (IntOp.addi (x k) (Ns k)) (x k)) nm) = 1#1
  rw [hZ k, hNs k]
  exact wrap_tests N hN nn nm (x k) hn hm (hx k)

/-- The same after the column is given a trailing unit axis. -/
theorem take_tests {s s' : Shape} (dims : Fin s.rank → Fin s'.rank) (hb : s.BroadcastsInDim s' dims) (x Zs Ns : IVec s 32)
    (N : Int) (hN : N < 2 ^ 31) (nn nm : BitVec 32) (hn : nn.toInt = N) (hm : nm.toInt = N - 1)
    (hZ : ∀ k, Zs k = 0#32) (hNs : ∀ k, Ns k = nn) (hx : ∀ k, -N ≤ (x k).toInt ∧ (x k).toInt < N) (i : s'.Idx) :
    IntOp.andi (IntOp.cmpi .sge (broadcastInDim s' dims hb (select (cmpi .slt x Zs) (addi x Ns) x) i) 0#32)
      (IntOp.cmpi .sle (broadcastInDim s' dims hb (select (cmpi .slt x Zs) (addi x Ns) x) i) nm) = 1#1 := by
  unfold broadcastInDim
  exact wrapped_tests x Zs Ns N hN nn nm hn hm hZ hNs hx _

/-! ## A take of rows for a column of 4096 indices -/

/-- The test a take applies to its wrapped indices (0 ≤ index ≤ nm), folded over the unit axis and spread over
    the 128 entries of each gathered row. -/
def mask2 (I : IVec S4096x1 32) (nm : BitVec 32) : IVec S4096x128 1 :=
  broadcastInDim S4096x128 ![0] bcast_S4096_S4096x128_0
    (Host.reduce IntOp.andi
      (andi (cmpi .sge I (broadcastInDim S4096x1 ![] bcast_S_S4096x1 (constantI S_ 32 0#32)))
        (cmpi .sle I (broadcastInDim S4096x1 ![0, 1] bcast_S1x1_S4096x1_0_1 (broadcastInDim S1x1 ![1] bcast_S1_S1x1_1 (constantI S1 32 nm)))))
      (constantI S_ 1 1#1) reducesTo_S4096x1_S4096_d1 h_S_)

/-- The gathered rows `g` where the test holds, the word 0x7FC00000 elsewhere. -/
def take2 (I : IVec S4096x1 32) (nm : BitVec 32) (g : FVec Ideal S4096x128 .f32) : FVec Ideal S4096x128 .f32 :=
  select (mask2 I nm) g (broadcastInDim S4096x128 ![] bcast_S_S4096x128 (constant (F := Ideal) S_ .f32 0x7FC00000#32))

theorem mask2_ones (I : IVec S4096x1 32) (nm : BitVec 32)
    (hI : ∀ i, IntOp.andi (IntOp.cmpi .sge (I i) 0#32) (IntOp.cmpi .sle (I i) nm) = 1#1) (j : S4096x128.Idx) :
    mask2 I nm j = 1#1 := by
  unfold mask2
  exact broadcastInDim_of_const _ _ _ 1#1 (fun k => reduce_andi_ones _ _ _ _ (fun i => hI i) (fun _ => rfl) k) j

/-- Where every wrapped index passes the test, the take is the gather. -/
theorem take2_eq (I : IVec S4096x1 32) (nm : BitVec 32) (g : FVec Ideal S4096x128 .f32)
    (hI : ∀ i, IntOp.andi (IntOp.cmpi .sge (I i) 0#32) (IntOp.cmpi .sle (I i) nm) = 1#1) : take2 I nm g = g := by
  unfold take2
  exact select_of_ones _ _ _ (mask2_ones I nm hI)

/-! ## A take of rows for a 4096 × 64 array of indices -/

/-- The same test for a 4096 × 64 array of wrapped indices. -/
def mask3 (I : IVec S4096x64x1 32) (nm : BitVec 32) : IVec S4096x64x128 1 :=
  broadcastInDim S4096x64x128 ![0, 1] bcast_S4096x64_S4096x64x128_0_1
    (Host.reduce IntOp.andi
      (andi (cmpi .sge I (broadcastInDim S4096x64x1 ![] bcast_S_S4096x64x1 (constantI S_ 32 0#32)))
        (cmpi .sle I (broadcastInDim S4096x64x1 ![0, 1, 2] bcast_S1x1x1_S4096x64x1_0_1_2 (broadcastInDim S1x1x1 ![2] bcast_S1_S1x1x1_2 (constantI S1 32 nm)))))
      (constantI S_ 1 1#1) reducesTo_S4096x64x1_S4096x64_d2 h_S_)

/-- The gathered rows `g` where the test holds, the word 0x7FC00000 elsewhere. -/
def take3 (I : IVec S4096x64x1 32) (nm : BitVec 32) (g : FVec Ideal S4096x64x128 .f32) : FVec Ideal S4096x64x128 .f32 :=
  select (mask3 I nm) g (broadcastInDim S4096x64x128 ![] bcast_S_S4096x64x128 (constant (F := Ideal) S_ .f32 0x7FC00000#32))

theorem mask3_ones (I : IVec S4096x64x1 32) (nm : BitVec 32)
    (hI : ∀ i, IntOp.andi (IntOp.cmpi .sge (I i) 0#32) (IntOp.cmpi .sle (I i) nm) = 1#1) (j : S4096x64x128.Idx) :
    mask3 I nm j = 1#1 := by
  unfold mask3
  exact broadcastInDim_of_const _ _ _ 1#1 (fun k => reduce_andi_ones _ _ _ _ (fun i => hI i) (fun _ => rfl) k) j

/-- Where every wrapped index passes the test, the take is the gather. -/
theorem take3_eq (I : IVec S4096x64x1 32) (nm : BitVec 32) (g : FVec Ideal S4096x64x128 .f32)
    (hI : ∀ i, IntOp.andi (IntOp.cmpi .sge (I i) 0#32) (IntOp.cmpi .sle (I i) nm) = 1#1) : take3 I nm g = g := by
  unfold take3
  exact select_of_ones _ _ _ (mask3_ones I nm hI)

variable (m : (ℓ : Loc nD τ sig) → Buf (Elt Ideal) ℓ) (c : Dev nD)

/-- The index inputs as the kernel's memory holds them are in range. -/
abbrev InRange : Prop :=
  Ranges (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-! ## The user rows -/

/-- What the host operations leave in the user-row buffer: the take of the user table at the wrapped first column
    of the pair array. -/
theorem users_read : (V (F := Ideal) m c main_v4 : S4096x128.Idx → EReal)
    = take2 (Cert.ReferenceIdeal.Read.val_main_v7 (F := Ideal) (m ((c : Thread nD τ).loc main_arg0))) 99999#32
        (Cert.ReferenceIdeal.Read.val_main_v8 (F := Ideal) (m ((c : Thread nD τ).loc main_arg0)) (m ((c : Thread nD τ).loc main_arg8))) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11,
    List.flatten_cons, List.flatten_nil, List.append_nil, List.cons_append, List.nil_append]
  after_results_simp
  simp only [StableHlo.TRef.toBuf, StableHlo.TRef.ofBuf, cast_eq]
  rfl

/-- The first column of the pair array, as the reference's reshape of its slice reads it. -/
theorem users_col (x0 : (⟨S4096x2, .i32⟩ : BufTy).Contents (Elt Ideal)) (b : Fin 4096) :
    Cert.ReferenceIdeal.Read.val_main_v1 (F := Ideal) x0 (ix1 b) = x0 (ix2 b (0 : Fin 2)) := by
  rw [Cert.ReferenceIdeal.Read.val_main_v1_apply, Cert.ReferenceIdeal.Read.val_main_v0_apply]
  refine congrArg x0 (funext fun a => Fin.ext ?_)
  match a with
  | ⟨0, _⟩ => show b.val / 1 = b.val; omega
  | ⟨1, _⟩ => rfl

/-- The launched user rows are the reference's gathered user rows. -/
theorem users_eq (h : InRange m c) : V (F := Ideal) m c main_v4
    = Cert.ReferenceIdeal.Read.val_main_v8 (F := Ideal) (m ((c : Thread nD τ).loc main_arg0)) (m ((c : Thread nD τ).loc main_arg8)) := by
  refine (users_read m c).trans (take2_eq _ _ _ fun i => ?_)
  unfold Cert.ReferenceIdeal.Read.val_main_v7 Cert.ReferenceIdeal.Read.val_main_v6 Cert.ReferenceIdeal.Read.val_main_v3 Cert.ReferenceIdeal.Read.val_main_v5
  refine take_tests _ _ _ (Cert.ReferenceIdeal.Read.val_main_v2 (F := Ideal)) (Cert.ReferenceIdeal.Read.val_main_v4 (F := Ideal)) 100000 (by norm_num) 100000#32 99999#32 (by decide) (by decide)
    (fun k => rfl) (fun k => rfl) (fun k => ?_) i
  obtain ⟨b, rfl⟩ : ∃ b : Fin 4096, k = ix1 b := ⟨k 0, eq_ix1 k⟩
  rw [users_col]
  exact h.users b

/-! ## The combined positive rows -/

/-- The second column of the pair array, as the reference's reshape of its slice reads it. -/
theorem items_col (x0 : (⟨S4096x2, .i32⟩ : BufTy).Contents (Elt Ideal)) (b : Fin 4096) :
    Cert.ReferenceIdeal.Read.val_main_v10 (F := Ideal) x0 (ix1 b) = x0 (ix2 b (1 : Fin 2)) := by
  rw [Cert.ReferenceIdeal.Read.val_main_v10_apply, Cert.ReferenceIdeal.Read.val_main_v9_apply]
  refine congrArg x0 (funext fun a => Fin.ext ?_)
  match a with
  | ⟨0, _⟩ => show b.val / 1 = b.val; omega
  | ⟨1, _⟩ => rfl

/-- The wrapped positive item indices pass the item table's range test. -/
theorem items_tests (h : InRange m c) (i : S4096x1.Idx) :
    IntOp.andi (IntOp.cmpi .sge (Cert.ReferenceIdeal.Read.val_main_v16 (F := Ideal) (m ((c : Thread nD τ).loc main_arg0)) i) 0#32)
      (IntOp.cmpi .sle (Cert.ReferenceIdeal.Read.val_main_v16 (F := Ideal) (m ((c : Thread nD τ).loc main_arg0)) i) 499999#32) = 1#1 := by
  unfold Cert.ReferenceIdeal.Read.val_main_v16 Cert.ReferenceIdeal.Read.val_main_v15 Cert.ReferenceIdeal.Read.val_main_v12 Cert.ReferenceIdeal.Read.val_main_v14
  refine take_tests _ _ _ (Cert.ReferenceIdeal.Read.val_main_v11 (F := Ideal)) (Cert.ReferenceIdeal.Read.val_main_v13 (F := Ideal)) 500000 (by norm_num) 500000#32 499999#32 (by decide) (by decide)
    (fun k => rfl) (fun k => rfl) (fun k => ?_) i
  obtain ⟨b, rfl⟩ : ∃ b : Fin 4096, k = ix1 b := ⟨k 0, eq_ix1 k⟩
  rw [items_col]
  exact h.items b

/-- The wrapped positive artist indices pass the artist table's range test. -/
theorem posArtists_tests (h : InRange m c) (i : S4096x1.Idx) :
    IntOp.andi (IntOp.cmpi .sge (Cert.ReferenceIdeal.Read.val_main_v23 (F := Ideal) (m ((c : Thread nD τ).loc main_arg1)) i) 0#32)
      (IntOp.cmpi .sle (Cert.ReferenceIdeal.Read.val_main_v23 (F := Ideal) (m ((c : Thread nD τ).loc main_arg1)) i) 99999#32) = 1#1 := by
  unfold Cert.ReferenceIdeal.Read.val_main_v23 Cert.ReferenceIdeal.Read.val_main_v22 Cert.ReferenceIdeal.Read.val_main_v19 Cert.ReferenceIdeal.Read.val_main_v21
  refine take_tests _ _ _ (Cert.ReferenceIdeal.Read.val_main_v18 (F := Ideal)) (Cert.ReferenceIdeal.Read.val_main_v20 (F := Ideal)) 100000 (by norm_num) 100000#32 99999#32 (by decide) (by decide)
    (fun k => rfl) (fun k => rfl) (fun k => ?_) i
  obtain ⟨b, rfl⟩ : ∃ b : Fin 4096, k = ix1 b := ⟨k 0, eq_ix1 k⟩
  exact h.posArtists b

/-- The wrapped positive album indices pass the album table's range test. -/
theorem posAlbums_tests (h : InRange m c) (i : S4096x1.Idx) :
    IntOp.andi (IntOp.cmpi .sge (Cert.ReferenceIdeal.Read.val_main_v31 (F := Ideal) (m ((c : Thread nD τ).loc main_arg2)) i) 0#32)
      (IntOp.cmpi .sle (Cert.ReferenceIdeal.Read.val_main_v31 (F := Ideal) (m ((c : Thread nD τ).loc main_arg2)) i) 199999#32) = 1#1 := by
  unfold Cert.ReferenceIdeal.Read.val_main_v31 Cert.ReferenceIdeal.Read.val_main_v30 Cert.ReferenceIdeal.Read.val_main_v27 Cert.ReferenceIdeal.Read.val_main_v29
  refine take_tests _ _ _ (Cert.ReferenceIdeal.Read.val_main_v26 (F := Ideal)) (Cert.ReferenceIdeal.Read.val_main_v28 (F := Ideal)) 200000 (by norm_num) 200000#32 199999#32 (by decide) (by decide)
    (fun k => rfl) (fun k => rfl) (fun k => ?_) i
  obtain ⟨b, rfl⟩ : ∃ b : Fin 4096, k = ix1 b := ⟨k 0, eq_ix1 k⟩
  exact h.posAlbums b

/-- What the host operations leave in the positive item rows' buffer: the take of the item table at the wrapped second column of the pair array. -/
theorem items_read : (V (F := Ideal) m c main_v5 : S4096x128.Idx → EReal)
    = take2 (Cert.ReferenceIdeal.Read.val_main_v16 (F := Ideal) (m ((c : Thread nD τ).loc main_arg0))) 499999#32 (Cert.ReferenceIdeal.Read.val_main_v17 (F := Ideal) (m ((c : Thread nD τ).loc main_arg0)) (m ((c : Thread nD τ).loc main_arg9))) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11,
    List.flatten_cons, List.flatten_nil, List.append_nil, List.cons_append, List.nil_append]
  after_results_simp
  simp only [StableHlo.TRef.toBuf, StableHlo.TRef.ofBuf, cast_eq]
  rfl

/-- The positive artist rows' buffer: the take of the artist table at the wrapped positive artist indices. -/
theorem posArtists_read : (V (F := Ideal) m c main_v6 : S4096x128.Idx → EReal)
    = take2 (Cert.ReferenceIdeal.Read.val_main_v23 (F := Ideal) (m ((c : Thread nD τ).loc main_arg1))) 99999#32 (Cert.ReferenceIdeal.Read.val_main_v24 (F := Ideal) (m ((c : Thread nD τ).loc main_arg1)) (m ((c : Thread nD τ).loc main_arg10))) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11,
    List.flatten_cons, List.flatten_nil, List.append_nil, List.cons_append, List.nil_append]
  after_results_simp
  simp only [StableHlo.TRef.toBuf, StableHlo.TRef.ofBuf, cast_eq]
  rfl

/-- The positive album rows' buffer: the take of the album table at the wrapped positive album indices. -/
theorem posAlbums_read : (V (F := Ideal) m c main_v8 : S4096x128.Idx → EReal)
    = take2 (Cert.ReferenceIdeal.Read.val_main_v31 (F := Ideal) (m ((c : Thread nD τ).loc main_arg2))) 199999#32 (Cert.ReferenceIdeal.Read.val_main_v32 (F := Ideal) (m ((c : Thread nD τ).loc main_arg2)) (m ((c : Thread nD τ).loc main_arg11))) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11,
    List.flatten_cons, List.flatten_nil, List.append_nil, List.cons_append, List.nil_append]
  after_results_simp
  simp only [StableHlo.TRef.toBuf, StableHlo.TRef.ofBuf, cast_eq]
  rfl

/-- The combined positive rows' buffer: the three takes added and divided by the word 0x40400000. -/
theorem pos_read : (V (F := Ideal) m c main_v11 : S4096x128.Idx → EReal)
    = Host.divf (F := Ideal) (s := S4096x128) (φ := .f32)
        (addf (F := Ideal) (s := S4096x128) (φ := .f32)
          (addf (F := Ideal) (s := S4096x128) (φ := .f32) (V (F := Ideal) m c main_v5) (V (F := Ideal) m c main_v6))
          (V (F := Ideal) m c main_v8))
        (Cert.ReferenceIdeal.Read.val_main_v34 (F := Ideal)) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11,
    List.flatten_cons, List.flatten_nil, List.append_nil, List.cons_append, List.nil_append]
  after_results_simp
  simp only [StableHlo.TRef.toBuf, StableHlo.TRef.ofBuf, cast_eq]
  rfl

/-- The launched combined positive rows are the reference's. -/
theorem pos_eq (h : InRange m c) : V (F := Ideal) m c main_v11
    = Cert.ReferenceIdeal.Read.val_main_v35 (F := Ideal) (m ((c : Thread nD τ).loc main_arg0)) (m ((c : Thread nD τ).loc main_arg1))
        (m ((c : Thread nD τ).loc main_arg2)) (m ((c : Thread nD τ).loc main_arg9)) (m ((c : Thread nD τ).loc main_arg10))
        (m ((c : Thread nD τ).loc main_arg11)) := by
  refine (pos_read m c).trans ?_
  rw [items_read, posArtists_read, posAlbums_read,
    take2_eq _ _ _ (items_tests m c h), take2_eq _ _ _ (posArtists_tests m c h), take2_eq _ _ _ (posAlbums_tests m c h)]
  rfl

/-! ## The combined negative rows -/

/-- The wrapped negative item indices pass the item table's range test. -/
theorem negItems_tests (h : InRange m c) (i : S4096x64x1.Idx) :
    IntOp.andi (IntOp.cmpi .sge (Cert.ReferenceIdeal.Read.val_main_v44 (F := Ideal) (m ((c : Thread nD τ).loc main_arg3)) i) 0#32)
      (IntOp.cmpi .sle (Cert.ReferenceIdeal.Read.val_main_v44 (F := Ideal) (m ((c : Thread nD τ).loc main_arg3)) i) 499999#32) = 1#1 := by
  unfold Cert.ReferenceIdeal.Read.val_main_v44 Cert.ReferenceIdeal.Read.val_main_v43 Cert.ReferenceIdeal.Read.val_main_v40 Cert.ReferenceIdeal.Read.val_main_v42
  refine take_tests _ _ _ (Cert.ReferenceIdeal.Read.val_main_v39 (F := Ideal)) (Cert.ReferenceIdeal.Read.val_main_v41 (F := Ideal)) 500000 (by norm_num) 500000#32 499999#32 (by decide) (by decide)
    (fun k => rfl) (fun k => rfl) (fun k => ?_) i
  obtain ⟨b, n, rfl⟩ : ∃ (b : Fin 4096) (n : Fin 64), k = ix2 b n := ⟨k 0, k 1, eq_ix2 k⟩
  exact h.negItems b n

/-- The wrapped negative artist indices pass the artist table's range test. -/
theorem negArtists_tests (h : InRange m c) (i : S4096x64x1.Idx) :
    IntOp.andi (IntOp.cmpi .sge (Cert.ReferenceIdeal.Read.val_main_v51 (F := Ideal) (m ((c : Thread nD τ).loc main_arg4)) i) 0#32)
      (IntOp.cmpi .sle (Cert.ReferenceIdeal.Read.val_main_v51 (F := Ideal) (m ((c : Thread nD τ).loc main_arg4)) i) 99999#32) = 1#1 := by
  unfold Cert.ReferenceIdeal.Read.val_main_v51 Cert.ReferenceIdeal.Read.val_main_v50 Cert.ReferenceIdeal.Read.val_main_v47 Cert.ReferenceIdeal.Read.val_main_v49
  refine take_tests _ _ _ (Cert.ReferenceIdeal.Read.val_main_v46 (F := Ideal)) (Cert.ReferenceIdeal.Read.val_main_v48 (F := Ideal)) 100000 (by norm_num) 100000#32 99999#32 (by decide) (by decide)
    (fun k => rfl) (fun k => rfl) (fun k => ?_) i
  obtain ⟨b, n, rfl⟩ : ∃ (b : Fin 4096) (n : Fin 64), k = ix2 b n := ⟨k 0, k 1, eq_ix2 k⟩
  exact h.negArtists b n

/-- The wrapped negative album indices pass the album table's range test. -/
theorem negAlbums_tests (h : InRange m c) (i : S4096x64x1.Idx) :
    IntOp.andi (IntOp.cmpi .sge (Cert.ReferenceIdeal.Read.val_main_v59 (F := Ideal) (m ((c : Thread nD τ).loc main_arg5)) i) 0#32)
      (IntOp.cmpi .sle (Cert.ReferenceIdeal.Read.val_main_v59 (F := Ideal) (m ((c : Thread nD τ).loc main_arg5)) i) 199999#32) = 1#1 := by
  unfold Cert.ReferenceIdeal.Read.val_main_v59 Cert.ReferenceIdeal.Read.val_main_v58 Cert.ReferenceIdeal.Read.val_main_v55 Cert.ReferenceIdeal.Read.val_main_v57
  refine take_tests _ _ _ (Cert.ReferenceIdeal.Read.val_main_v54 (F := Ideal)) (Cert.ReferenceIdeal.Read.val_main_v56 (F := Ideal)) 200000 (by norm_num) 200000#32 199999#32 (by decide) (by decide)
    (fun k => rfl) (fun k => rfl) (fun k => ?_) i
  obtain ⟨b, n, rfl⟩ : ∃ (b : Fin 4096) (n : Fin 64), k = ix2 b n := ⟨k 0, k 1, eq_ix2 k⟩
  exact h.negAlbums b n

/-- The negative item rows' buffer: the take of the item table at the wrapped negative item indices. -/
theorem negItems_read : (V (F := Ideal) m c main_v12 : S4096x64x128.Idx → EReal)
    = take3 (Cert.ReferenceIdeal.Read.val_main_v44 (F := Ideal) (m ((c : Thread nD τ).loc main_arg3))) 499999#32 (Cert.ReferenceIdeal.Read.val_main_v45 (F := Ideal) (m ((c : Thread nD τ).loc main_arg3)) (m ((c : Thread nD τ).loc main_arg9))) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11,
    List.flatten_cons, List.flatten_nil, List.append_nil, List.cons_append, List.nil_append]
  after_results_simp
  simp only [StableHlo.TRef.toBuf, StableHlo.TRef.ofBuf, cast_eq]
  rfl

/-- The negative artist rows' buffer: the take of the artist table at the wrapped negative artist indices. -/
theorem negArtists_read : (V (F := Ideal) m c main_v13 : S4096x64x128.Idx → EReal)
    = take3 (Cert.ReferenceIdeal.Read.val_main_v51 (F := Ideal) (m ((c : Thread nD τ).loc main_arg4))) 99999#32 (Cert.ReferenceIdeal.Read.val_main_v52 (F := Ideal) (m ((c : Thread nD τ).loc main_arg4)) (m ((c : Thread nD τ).loc main_arg10))) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11,
    List.flatten_cons, List.flatten_nil, List.append_nil, List.cons_append, List.nil_append]
  after_results_simp
  simp only [StableHlo.TRef.toBuf, StableHlo.TRef.ofBuf, cast_eq]
  rfl

/-- The negative album rows' buffer: the take of the album table at the wrapped negative album indices. -/
theorem negAlbums_read : (V (F := Ideal) m c main_v15 : S4096x64x128.Idx → EReal)
    = take3 (Cert.ReferenceIdeal.Read.val_main_v59 (F := Ideal) (m ((c : Thread nD τ).loc main_arg5))) 199999#32 (Cert.ReferenceIdeal.Read.val_main_v60 (F := Ideal) (m ((c : Thread nD τ).loc main_arg5)) (m ((c : Thread nD τ).loc main_arg11))) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11,
    List.flatten_cons, List.flatten_nil, List.append_nil, List.cons_append, List.nil_append]
  after_results_simp
  simp only [StableHlo.TRef.toBuf, StableHlo.TRef.ofBuf, cast_eq]
  rfl

/-- The combined negative rows' buffer: the three takes added and divided by the word 0x40400000. -/
theorem neg_read : (V (F := Ideal) m c main_v18 : S4096x64x128.Idx → EReal)
    = Host.divf (F := Ideal) (s := S4096x64x128) (φ := .f32)
        (addf (F := Ideal) (s := S4096x64x128) (φ := .f32)
          (addf (F := Ideal) (s := S4096x64x128) (φ := .f32) (V (F := Ideal) m c main_v12) (V (F := Ideal) m c main_v13))
          (V (F := Ideal) m c main_v15))
        (Cert.ReferenceIdeal.Read.val_main_v62 (F := Ideal)) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11,
    List.flatten_cons, List.flatten_nil, List.append_nil, List.cons_append, List.nil_append]
  after_results_simp
  simp only [StableHlo.TRef.toBuf, StableHlo.TRef.ofBuf, cast_eq]
  rfl

/-- The launched combined negative rows are the reference's. -/
theorem neg_eq (h : InRange m c) : V (F := Ideal) m c main_v18
    = Cert.ReferenceIdeal.Read.val_main_v63 (F := Ideal) (m ((c : Thread nD τ).loc main_arg3)) (m ((c : Thread nD τ).loc main_arg4))
        (m ((c : Thread nD τ).loc main_arg5)) (m ((c : Thread nD τ).loc main_arg9)) (m ((c : Thread nD τ).loc main_arg10))
        (m ((c : Thread nD τ).loc main_arg11)) := by
  refine (neg_read m c).trans ?_
  rw [negItems_read, negArtists_read, negAlbums_read,
    take3_eq _ _ _ (negItems_tests m c h), take3_eq _ _ _ (negArtists_tests m c h), take3_eq _ _ _ (negAlbums_tests m c h)]
  rfl

end Cert.Retrieval.HostBridge

end
-- ==== Proof.KernelArrays.lean ====
/-
  The kernel's three result arrays after its run, as the specification's functions of the three arrays its one
  pallas_call is launched on: the user rows (%4), the combined positive rows (%11) and the combined negative
  rows (%18), each as the host operations before the call leave it.

  Grid point t handles examples 128·t … 128·t + 127. Its body loads the three blocks whole, and stores
    row sums of (u − p)²            into block t of result 0,
    lane sums of (u − n)²           into block t of result 1  (u repeated along the 64 negatives),
    the minimum over the negatives  into block t of result 2.
  Each lane sum is a plain finite sum at the ideal instance and the minimum a fold of min over the 64 negatives,
  so entry (128·t + p) of a result is the specification at example 128·t + p; the 32 blocks tile each result.
-/
import proofs.«415283_j85383949844517_2_alg».proof.Proof.Gen.KernelIdeal.Value
import proofs.«415283_j85383949844517_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.Retrieval.KernelSide

open Cert.KernelIdeal Cert.KernelIdeal.Gen Idealize.ShloMosaic Idealize.ShloMosaic.TcCoe Idealize.SL.Sem
open Idealize.ShloMosaic.ValueIdx Cert.Retrieval

variable (m : (ℓ : Loc nD τ sig) → Buf (Elt Ideal) ℓ) (ρ : Dev nD → PrngReg)

/-! ## The body's three results at an entry -/

/-- A minimum taken along one axis is the fold of `min`, from the starting word's value, over that axis's coordinates. -/
theorem minimum_along_axis {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Row `p` with lane `d` put back is entry `(p, d)`. -/
theorem lift_row (p : Fin 128) (d : Fin 128) : reduces_S128x128_S128.lift (ix1 p) d = ix2 p d :=
  funext fun a => match a with | ⟨0, _⟩ => Fin.ext rfl | ⟨1, _⟩ => Fin.ext rfl

/-- Entry `(p, k)` with lane `d` put back is entry `(p, k, d)`. -/
theorem lift_pair (p : Fin 128) (k : Fin 64) (d : Fin 128) : reduces_S128x64x128_S128x64.lift (ix2 p k) d = ix3 p k d :=
  funext fun a => match a with | ⟨0, _⟩ => Fin.ext rfl | ⟨1, _⟩ => Fin.ext rfl | ⟨2, _⟩ => Fin.ext rfl

/-- Row `p` with negative `k` put back is entry `(p, k)`. -/
theorem lift_neg (p : Fin 128) (k : Fin 64) : reduces_S128x64_S128.lift (ix1 p) k = ix2 p k :=
  funext fun a => match a with | ⟨0, _⟩ => Fin.ext rfl | ⟨1, _⟩ => Fin.ext rfl

/-- The first result of the body at row `p`: the squared distance between row `p` of the two loaded blocks. -/
theorem pay2_at (v0 v2 : Vec Ideal S128x128 .f32) (p : Fin 128) :
    k0_pay2 v0 v2 (ix1 p) = ∑ d : Fin 128, (v0 (ix2 p d) - v2 (ix2 p d)) * (v0 (ix2 p d) - v2 (ix2 p d)) := by
  unfold k0_pay2 k0_pay1
  refine (Ideal.multiReduction_add_single _ 0x00000000#32 reduces_S128x128_S128 (.inl rfl) rfl (ix1 p)).trans ?_
  refine Finset.sum_congr rfl fun (d : Fin 128) _ => ?_
  rw [lift_row p d]
  simp only [mulf_apply, subf_apply, shapeCast_self]

/-- The user rows repeated along the 64 negatives, read at `(p, k, d)`: entry `(p, d)` of the user block. -/
theorem users_repeated_at (v0 : Vec Ideal S128x128 .f32) (p : Fin 128) (k : Fin 64) (d : Fin 128) :
    broadcastTo S128x64x128 (shapeCast S128x1x128 (k0_pay1 v0) shapeCasts_S128x128_S128x1x128) broadcasts_S128x1x128_S128x64x128 (ix3 p k d)
      = v0 (ix2 p d) := by
  refine (broadcastTo_apply _ broadcasts_S128x1x128_S128x64x128 (ix3 p k d) (ix3 p (0 : Fin 1) d) fun a => ?_).trans ?_
  · match a with
    | ⟨0, _⟩ => rfl
    | ⟨1, _⟩ => rfl
    | ⟨2, _⟩ => rfl
  refine (shapeCast_apply _ shapeCasts_S128x128_S128x1x128 (ix3 p (0 : Fin 1) d) (ix2 p d) ?_).trans ?_
  · rw [Shape.rowMajor_val_two, Shape.rowMajor_val_three]
    show p.val * 128 + d.val = (p.val * 1 + 0) * 128 + d.val
    omega
  unfold k0_pay1
  simp only [shapeCast_self]

/-- The second result of the body at `(p, k)`: the squared distance between row `p` of the user block and row
    `(p, k)` of the negatives' block. -/
theorem pay3_at (v0 : Vec Ideal S128x128 .f32) (v8 : Vec Ideal S128x64x128 .f32) (p : Fin 128) (k : Fin 64) :
    k0_pay3 v0 v8 (ix2 p k) = ∑ d : Fin 128, (v0 (ix2 p d) - v8 (ix3 p k d)) * (v0 (ix2 p d) - v8 (ix3 p k d)) := by
  unfold k0_pay3
  refine (Ideal.multiReduction_add_single _ 0x00000000#32 reduces_S128x64x128_S128x64 (.inl rfl) rfl (ix2 p k)).trans ?_
  refine Finset.sum_congr rfl fun (d : Fin 128) _ => ?_
  rw [lift_pair p k d]
  simp only [mulf_apply, subf_apply, shapeCast_self, users_repeated_at]

/-- The third result of the body at row `p`: the least of row `p`'s 64 entries of the second result, the minimum
    started at the value of the word 0x7F800000. -/
theorem pay4_at (v0 : Vec Ideal S128x128 .f32) (v8 : Vec Ideal S128x64x128 .f32) (p : Fin 128) :
    k0_pay4 v0 v8 (ix1 p)
      = (Finset.univ : Finset (Fin 64)).fold min (Ideal.ofBits .f32 0x7F800000#32) (fun k => k0_pay3 v0 v8 (ix2 p k)) := by
  refine (minimum_along_axis (k0_pay3 v0 v8) 0x7F800000#32 reduces_S128x64_S128 (.inl rfl) rfl (ix1 p)).trans ?_
  refine congrArg (fun f => (Finset.univ : Finset (Fin 64)).fold min (Ideal.ofBits .f32 0x7F800000#32) f)
    (funext fun (k : Fin 64) => ?_)
  exact congrArg (k0_pay3 v0 v8) (lift_neg p k)

/-! ## The launched arrays and their blocks -/

/-- The three arrays the call is launched on, as core `c` finds them. -/
abbrev users (c : Dev nD) : SEmb.Idx → EReal := V (F := Ideal) m c main_v4
abbrev positives (c : Dev nD) : SEmb.Idx → EReal := V (F := Ideal) m c main_v11
abbrev negatives (c : Dev nD) : SNeg.Idx → EReal := V (F := Ideal) m c main_v18

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Grid point `t` takes block `t` of every array along the examples, and the whole of every other axis. -/
theorem block_of_point : ∀ t : Fin cfg0.N,
    win0_3.index t (0 : Fin 1) = t.val
    ∧ win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_4.index t (0 : Fin 2) = t.val ∧ win0_4.index t (1 : Fin 2) = 0
    ∧ win0_5.index t (0 : Fin 1) = t.val :=
  (by decide +kernel : ∀ t : Fin grid0.N, _)

/-- Entry `(p, d)` of the user block at point `t` is entry `(128·t + p, d)` of the user rows. -/
theorem users_block (c : Dev nD) (t : Fin cfg0.N) (p d : Fin 128) (b : Fin 4096) (hb : b.val = 128 * t.val + p.val) :
    (iblk (F := Ideal) m c 0 t : Vec Ideal S128x128 .f32) (ix2 p d) = users m c (ix2 b d) := by
  obtain ⟨-, e0, e1, -⟩ := block_of_point t
  show V (F := Ideal) m c main_v4 (((cfg0.win 0).blk t).view.emb (ix2 p d)) = V (F := Ideal) m c main_v4 (ix2 b d)
  refine congrArg _ (funext fun a => Fin.ext ?_)
  match a with
  | ⟨0, _⟩ => show win0_0.index t (0 : Fin 2) * 128 + 1 * p.val = b.val; omega
  | ⟨1, _⟩ => show win0_0.index t (1 : Fin 2) * 128 + 1 * d.val = d.val; omega

/-- Entry `(p, d)` of the positives' block at point `t` is entry `(128·t + p, d)` of the positive rows. -/
theorem positives_block (c : Dev nD) (t : Fin cfg0.N) (p d : Fin 128) (b : Fin 4096) (hb : b.val = 128 * t.val + p.val) :
    (iblk (F := Ideal) m c 1 t : Vec Ideal S128x128 .f32) (ix2 p d) = positives m c (ix2 b d) := by
  obtain ⟨-, -, -, e0, e1, -⟩ := block_of_point t
  show V (F := Ideal) m c main_v11 (((cfg0.win 1).blk t).view.emb (ix2 p d)) = V (F := Ideal) m c main_v11 (ix2 b d)
  refine congrArg _ (funext fun a => Fin.ext ?_)
  match a with
  | ⟨0, _⟩ => show win0_1.index t (0 : Fin 2) * 128 + 1 * p.val = b.val; omega
  | ⟨1, _⟩ => show win0_1.index t (1 : Fin 2) * 128 + 1 * d.val = d.val; omega

/-- Entry `(p, k, d)` of the negatives' block at point `t` is entry `(128·t + p, k, d)` of the negative rows. -/
theorem negatives_block (c : Dev nD) (t : Fin cfg0.N) (p : Fin 128) (k : Fin 64) (d : Fin 128) (b : Fin 4096)
    (hb : b.val = 128 * t.val + p.val) :
    (iblk (F := Ideal) m c 2 t : Vec Ideal S128x64x128 .f32) (ix3 p k d) = negatives m c (ix3 b k d) := by
  obtain ⟨-, -, -, -, -, e0, e1, e2, -⟩ := block_of_point t
  show V (F := Ideal) m c main_v18 (((cfg0.win 2).blk t).view.emb (ix3 p k d)) = V (F := Ideal) m c main_v18 (ix3 b k d)
  refine congrArg _ (funext fun a => Fin.ext ?_)
  match a with
  | ⟨0, _⟩ => show win0_2.index t (0 : Fin 3) * 128 + 1 * p.val = b.val; omega
  | ⟨1, _⟩ => show win0_2.index t (1 : Fin 3) * 64 + 1 * k.val = k.val; omega
  | ⟨2, _⟩ => show win0_2.index t (2 : Fin 3) * 128 + 1 * d.val = d.val; omega

/-! ## What a grid point writes back -/

/-- Point `t` writes back, to the first result, block `t` of the squared distances to the positives. -/
theorem flushed_pos (c : Dev nD) (t : Fin cfg0.N) :
    (dats (F := Ideal) m 0 c).flushed 3 t
      = ((cfg0.win 3).blk t).view.read (Elt Ideal) (posDist (users m c) (positives m c)) := by
  rw [Value.flushed3]
  unfold out0_3
  rw [View.canon_unit_zero hz1]
  simp only [View.ld_unit_zero (S := S128x128) hz2]
  obtain ⟨e3, -⟩ := block_of_point t
  funext (j : S128.Idx)
  obtain ⟨p, rfl⟩ : ∃ p : Fin 128, j = ix1 p := ⟨j 0, eq_ix1 j⟩
  show k0_pay2 (iblk (F := Ideal) m c 0 t) (iblk (F := Ideal) m c 1 t) (ix1 p)
    = posDistAt (users m c) (positives m c) ((((cfg0.win 3).blk t).view.emb (ix1 p)) 0)
  refine (pay2_at (iblk (F := Ideal) m c 0 t) (iblk (F := Ideal) m c 1 t) p).trans ?_
  have hb : ((((cfg0.win 3).blk t).view.emb (ix1 p)) 0).val = 128 * t.val + p.val := by
    show win0_3.index t (0 : Fin 1) * 128 + 1 * p.val = _; omega
  unfold posDistAt
  refine Finset.sum_congr rfl fun d _ => ?_
  rw [users_block m c t p d _ hb, positives_block m c t p d _ hb]

/-- Point `t` writes back, to the second result, block `t` of the squared distances to the negatives. -/
theorem flushed_neg (c : Dev nD) (t : Fin cfg0.N) :
    (dats (F := Ideal) m 0 c).flushed 4 t
      = ((cfg0.win 4).blk t).view.read (Elt Ideal) (negDist (users m c) (negatives m c)) := by
  rw [Value.flushed4]
  unfold out0_4
  rw [View.canon_unit_zero hz2]
  simp only [View.ld_unit_zero (S := S128x128) hz2, View.ld_unit_zero (S := S128x64x128) hz3]
  obtain ⟨-, -, -, -, -, -, -, -, e4, e4', -⟩ := block_of_point t
  funext (j : S128x64.Idx)
  obtain ⟨p, k, rfl⟩ : ∃ (p : Fin 128) (k : Fin 64), j = ix2 p k := ⟨j 0, j 1, eq_ix2 j⟩
  show k0_pay3 (iblk (F := Ideal) m c 0 t) (iblk (F := Ideal) m c 2 t) (ix2 p k)
    = negDistAt (users m c) (negatives m c) ((((cfg0.win 4).blk t).view.emb (ix2 p k)) 0)
        ((((cfg0.win 4).blk t).view.emb (ix2 p k)) 1)
  refine (pay3_at (iblk (F := Ideal) m c 0 t) (iblk (F := Ideal) m c 2 t) p k).trans ?_
  have hb : ((((cfg0.win 4).blk t).view.emb (ix2 p k)) 0).val = 128 * t.val + p.val := by
    show win0_4.index t (0 : Fin 2) * 128 + 1 * p.val = _; omega
  have hk : (((cfg0.win 4).blk t).view.emb (ix2 p k)) 1 = k :=
    Fin.ext (by show win0_4.index t (1 : Fin 2) * 64 + 1 * k.val = k.val; omega)
  rw [hk]
  unfold negDistAt
  refine Finset.sum_congr rfl fun d _ => ?_
  rw [users_block m c t p d _ hb, negatives_block m c t p k d _ hb]

/-- Point `t` writes back, to the third result, block `t` of the least squared distances to the negatives. -/
theorem flushed_closest (c : Dev nD) (t : Fin cfg0.N) :
    (dats (F := Ideal) m 0 c).flushed 5 t
      = ((cfg0.win 5).blk t).view.read (Elt Ideal) (closest (users m c) (negatives m c)) := by
  rw [Value.flushed5]
  unfold out0_5
  rw [View.canon_unit_zero hz1]
  simp only [View.ld_unit_zero (S := S128x128) hz2, View.ld_unit_zero (S := S128x64x128) hz3]
  obtain ⟨-, -, -, -, -, -, -, -, -, -, e5⟩ := block_of_point t
  funext (j : S128.Idx)
  obtain ⟨p, rfl⟩ : ∃ p : Fin 128, j = ix1 p := ⟨j 0, eq_ix1 j⟩
  show k0_pay4 (iblk (F := Ideal) m c 0 t) (iblk (F := Ideal) m c 2 t) (ix1 p)
    = closestAt (users m c) (negatives m c) ((((cfg0.win 5).blk t).view.emb (ix1 p)) 0)
  refine (pay4_at (iblk (F := Ideal) m c 0 t) (iblk (F := Ideal) m c 2 t) p).trans ?_
  have hb : ((((cfg0.win 5).blk t).view.emb (ix1 p)) 0).val = 128 * t.val + p.val := by
    show win0_5.index t (0 : Fin 1) * 128 + 1 * p.val = _; omega
  unfold closestAt
  refine congrArg (fun f => (Finset.univ : Finset (Fin 64)).fold min (Ideal.ofBits .f32 0x7F800000#32) f)
    (funext fun (k : Fin 64) => ?_)
  refine (pay3_at (iblk (F := Ideal) m c 0 t) (iblk (F := Ideal) m c 2 t) p k).trans ?_
  unfold negDistAt
  refine Finset.sum_congr rfl fun d _ => ?_
  rw [users_block m c t p d _ hb, negatives_block m c t p k d _ hb]

/-! ## The 32 blocks tile each result -/

/-- An entry of the first result is in point `t`'s block iff its row is among the block's 128 rows. -/
theorem mem_block_pos (t : Fin cfg0.N) (i : S4096.Idx) :
    i ∈ ((cfg0.win 3).blk t).view.set
      ↔ ∀ a : Fin 1, win0_3.index t a * S128.size a ≤ (i a).val ∧ (i a).val < win0_3.index t a * S128.size a + S128.size a := by
  show i ∈ ((View.whole main_v19_0).slice (win0_3.rect t)).set ↔ _
  rw [View.set_slice_whole, Rect.mem_set_unit]
  exact Iff.rfl

/-- An entry of the second result is in point `t`'s block iff its row is among the block's 128 rows. -/
theorem mem_block_neg (t : Fin cfg0.N) (i : S4096x64.Idx) :
    i ∈ ((cfg0.win 4).blk t).view.set
      ↔ ∀ a : Fin 2, win0_4.index t a * S128x64.size a ≤ (i a).val ∧ (i a).val < win0_4.index t a * S128x64.size a + S128x64.size a := by
  show i ∈ ((View.whole main_v19_1).slice (win0_4.rect t)).set ↔ _
  rw [View.set_slice_whole, Rect.mem_set_unit]
  exact Iff.rfl

/-- An entry of the third result is in point `t`'s block iff its row is among the block's 128 rows. -/
theorem mem_block_closest (t : Fin cfg0.N) (i : S4096.Idx) :
    i ∈ ((cfg0.win 5).blk t).view.set
      ↔ ∀ a : Fin 1, win0_5.index t a * S128.size a ≤ (i a).val ∧ (i a).val < win0_5.index t a * S128.size a + S128.size a := by
  show i ∈ ((View.whole main_v19_2).slice (win0_5.rect t)).set ↔ _
  rw [View.set_slice_whole, Rect.mem_set_unit]
  exact Iff.rfl

/-- The grid point that handles example `r`: `r / 128`. -/
def pointOf (r : Nat) (hr : r < 4096) : Fin cfg0.N := ⟨r / 128, by rw [show cfg0.N = 32 from N_0]; omega⟩

theorem pointOf_val (r : Nat) (hr : r < 4096) : (pointOf r hr).val = r / 128 := rfl

/-- Every entry of the first result lies in the block of the point that handles its example. -/
theorem cover_pos (i : S4096.Idx) : ∃ t : Fin cfg0.N, (cfg0.win 3).flush t = true ∧ i ∈ ((cfg0.win 3).blk t).view.set := by
  have hi : (i 0).val < 4096 := (i 0).isLt
  refine ⟨pointOf (i 0).val hi, flush0_3 _, ?_⟩
  rw [mem_block_pos]
  obtain ⟨e3, -⟩ := block_of_point (pointOf (i 0).val hi)
  rw [pointOf_val] at e3
  intro a
  match a with
  | ⟨0, _⟩ =>
    show win0_3.index (pointOf (i 0).val hi) (0 : Fin 1) * 128 ≤ (i 0).val
      ∧ (i 0).val < win0_3.index (pointOf (i 0).val hi) (0 : Fin 1) * 128 + 128
    omega

/-- Every entry of the second result lies in the block of the point that handles its example. -/
theorem cover_neg (i : S4096x64.Idx) : ∃ t : Fin cfg0.N, (cfg0.win 4).flush t = true ∧ i ∈ ((cfg0.win 4).blk t).view.set := by
  have hi : (i 0).val < 4096 := (i 0).isLt
  have hk : (i 1).val < 64 := (i 1).isLt
  refine ⟨pointOf (i 0).val hi, flush0_4 _, ?_⟩
  rw [mem_block_neg]
  obtain ⟨-, -, -, -, -, -, -, -, e4, e4', -⟩ := block_of_point (pointOf (i 0).val hi)
  rw [pointOf_val] at e4
  intro a
  match a with
  | ⟨0, _⟩ =>
    show win0_4.index (pointOf (i 0).val hi) (0 : Fin 2) * 128 ≤ (i 0).val
      ∧ (i 0).val < win0_4.index (pointOf (i 0).val hi) (0 : Fin 2) * 128 + 128
    omega
  | ⟨1, _⟩ =>
    show win0_4.index (pointOf (i 0).val hi) (1 : Fin 2) * 64 ≤ (i 1).val
      ∧ (i 1).val < win0_4.index (pointOf (i 0).val hi) (1 : Fin 2) * 64 + 64
    omega

/-- Every entry of the third result lies in the block of the point that handles its example. -/
theorem cover_closest (i : S4096.Idx) : ∃ t : Fin cfg0.N, (cfg0.win 5).flush t = true ∧ i ∈ ((cfg0.win 5).blk t).view.set := by
  have hi : (i 0).val < 4096 := (i 0).isLt
  refine ⟨pointOf (i 0).val hi, flush0_5 _, ?_⟩
  rw [mem_block_closest]
  obtain ⟨-, -, -, -, -, -, -, -, -, -, e5⟩ := block_of_point (pointOf (i 0).val hi)
  rw [pointOf_val] at e5
  intro a
  match a with
  | ⟨0, _⟩ =>
    show win0_5.index (pointOf (i 0).val hi) (0 : Fin 1) * 128 ≤ (i 0).val
      ∧ (i 0).val < win0_5.index (pointOf (i 0).val hi) (0 : Fin 1) * 128 + 128
    omega

/-! ## The result arrays after the run -/

theorem final_pos (c : Dev nD) : (dats (F := Ideal) m 0 c).arrAt 3 cfg0.N = posDist (users m c) (positives m c) :=
  (dats (F := Ideal) m 0 c).arrAt_eq_of_cover 3 (posDist (users m c) (positives m c)) (fun t _ => flushed_pos m c t) cover_pos

theorem final_neg (c : Dev nD) : (dats (F := Ideal) m 0 c).arrAt 4 cfg0.N = negDist (users m c) (negatives m c) :=
  (dats (F := Ideal) m 0 c).arrAt_eq_of_cover 4 (negDist (users m c) (negatives m c)) (fun t _ => flushed_neg m c t) cover_neg

theorem final_closest (c : Dev nD) : (dats (F := Ideal) m 0 c).arrAt 5 cfg0.N = closest (users m c) (negatives m c) :=
  (dats (F := Ideal) m 0 c).arrAt_eq_of_cover 5 (closest (users m c) (negatives m c)) (fun t _ => flushed_closest m c t) cover_closest

/-! ## The run -/

/-- The kernel's run, each result array named as the specification of the launched arrays, arguments unchanged. -/
theorem run : θ_run (defs (F := Ideal)) (onTc (τ := τ) (main (F := Ideal))) ⟨m, fun _ => 0, ρ⟩ fun r => ∀ c : Dev nD,
      r.2.mem ((c : Thread nD τ).loc main_v19_0) = posDist (V (F := Ideal) m c main_v4) (V (F := Ideal) m c main_v11)
      ∧ r.2.mem ((c : Thread nD τ).loc main_v19_1) = negDist (V (F := Ideal) m c main_v4) (V (F := Ideal) m c main_v18)
      ∧ r.2.mem ((c : Thread nD τ).loc main_v19_2) = closest (V (F := Ideal) m c main_v4) (V (F := Ideal) m c main_v18)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final_pos m c), (h c).2.1.trans (final_neg m c),
      (h c).2.2.1.trans (final_closest m c), (h c).2.2.2⟩)
    (Cert.KernelIdeal.Value.run_blocks (F := Ideal) m ρ)

end Cert.Retrieval.KernelSide

end
-- ==== Proof.ReferenceArrays.lean ====
/-
  The reference's three results as the specification's functions of three of its own intermediate stages: the
  gathered user rows (%8), the combined positive rows (%35) and the combined negative rows (%63).

  %38 is the host's sum over the 128 coordinates of (%8 − %35)², started at 0;
  %68 the same over (%8 repeated along the 64 negatives − %63)²; %69 the host's minimum of %68 over the
  64 negatives, started at the word 0x7F800000. At the ideal instance the sums are finite sums and the
  minimum a fold of min, which is how the specification is written.
-/
import proofs.«415283_j85383949844517_2_alg».proof.Proof.Gen.ReferenceIdeal.Read
import proofs.«415283_j85383949844517_2_alg».proof.Proof.Spec
import Idealize.ShloMosaic.Lib.ValueIdx
import Idealize.ShloMosaic.PureOps.Ideal.Laws

noncomputable section

namespace Cert.Retrieval.RefSide

open Cert.ReferenceIdeal Cert.ReferenceIdeal.Gen Cert.ReferenceIdeal.Read Idealize.ShloMosaic Idealize.ShloMosaic.TcCoe
open Idealize.ShloMosaic.ValueIdx Cert.Retrieval

variable (x0 : (⟨S4096x2, .i32⟩ : BufTy).Contents (Elt Ideal)) (x1 x2 : (⟨S4096, .i32⟩ : BufTy).Contents (Elt Ideal))
  (x3 x4 x5 : (⟨S4096x64, .i32⟩ : BufTy).Contents (Elt Ideal))
  (x8 : (⟨S100000x128, .f32⟩ : BufTy).Contents (Elt Ideal)) (x9 : (⟨S500000x128, .f32⟩ : BufTy).Contents (Elt Ideal))
  (x10 : (⟨S100000x128, .f32⟩ : BufTy).Contents (Elt Ideal)) (x11 : (⟨S200000x128, .f32⟩ : BufTy).Contents (Elt Ideal))

/-- The first result is the squared distance between the gathered user rows and the combined positive rows. -/
theorem posDist_eq : val_main_v38 (F := Ideal) x0 x1 x2 x8 x9 x10 x11
    = posDist (val_main_v8 (F := Ideal) x0 x8) (val_main_v35 (F := Ideal) x0 x1 x2 x9 x10 x11) := by
  funext i
  obtain ⟨b, rfl⟩ : ∃ b : Fin 4096, i = ix1 b := ⟨i 0, eq_ix1 i⟩
  -- the sum over the 128 coordinates, started at the value of the word 0, which is 0
  rw [val_main_v38_apply, val_main_cst_7_apply]
  show Ideal.ofBits .f32 0x00000000#32 + _ = _
  rw [Ideal.ofBits_zero_f32, zero_add]
  unfold posDist posDistAt
  refine Finset.sum_congr rfl fun d _ => ?_
  -- each summand is the square of the difference at (b, d)
  rw [val_main_v37_apply, val_main_v36_apply]
  have e : idx_main_v38 (ix1 b) d = ix2 b d :=
    funext fun a => Fin.ext (by match a with | ⟨0, _⟩ => rfl | ⟨1, _⟩ => rfl)
  rw [e]
  rfl

/-- The second result is the squared distance between the gathered user rows and each combined negative row. -/
theorem negDist_eq : val_main_v68 (F := Ideal) x0 x3 x4 x5 x8 x9 x10 x11
    = negDist (val_main_v8 (F := Ideal) x0 x8) (val_main_v63 (F := Ideal) x3 x4 x5 x9 x10 x11) := by
  funext i
  obtain ⟨b, k, rfl⟩ : ∃ (b : Fin 4096) (k : Fin 64), i = ix2 b k := ⟨i 0, i 1, eq_ix2 i⟩
  -- the sum over the 128 coordinates, started at the value of the word 0, which is 0
  rw [val_main_v68_apply, val_main_cst_15_apply]
  show Ideal.ofBits .f32 0x00000000#32 + _ = _
  rw [Ideal.ofBits_zero_f32, zero_add]
  unfold negDist negDistAt
  refine Finset.sum_congr rfl fun d _ => ?_
  -- each summand is the square of the difference at (b, k, d); the repeated user rows are read at (b, d)
  rw [val_main_v67_apply, val_main_v66_apply, val_main_v65_apply, val_main_v64_apply]
  have e1 : idx_main_v68 (ix2 b k) d = ix3 b k d :=
    funext fun a => Fin.ext (by match a with | ⟨0, _⟩ => rfl | ⟨1, _⟩ => rfl | ⟨2, _⟩ => rfl)
  have e2 : idx_main_v64 (idx_main_v65 (ix3 b k d)) = ix2 b d :=
    funext fun a => Fin.ext (by match a with | ⟨0, _⟩ => rfl | ⟨1, _⟩ => rfl)
  rw [e1, e2]
  rfl

/-- The reduced index (b) with the negative's coordinate k put back is (b, k). -/
private theorem lift_ix1 (h : S4096x64.Reduces [1] S4096) (b : Fin 4096) (k : Fin (S4096x64.size 1)) :
    h.lift (ix1 b) k = ix2 b (⟨k.val, k.isLt⟩ : Fin 64) := by
  funext c; apply Fin.ext
  match c with
  | ⟨0, _⟩ => rfl
  | ⟨1, _⟩ => rfl

/-- The third result is the least of each example's 64 squared distances to its negatives. -/
theorem closest_eq : val_main_v69 (F := Ideal) x0 x3 x4 x5 x8 x9 x10 x11
    = closest (val_main_v8 (F := Ideal) x0 x8) (val_main_v63 (F := Ideal) x3 x4 x5 x9 x10 x11) := by
  funext i
  obtain ⟨b, rfl⟩ : ∃ b : Fin 4096, i = ix1 b := ⟨i 0, eq_ix1 i⟩
  unfold val_main_v69
  rw [negDist_eq]
  generalize val_main_v8 (F := Ideal) x0 x8 = U
  generalize val_main_v63 (F := Ideal) x3 x4 x5 x9 x10 x11 = Nn
  have h : S4096x64.Reduces [1] S4096 := by decide
  -- the minimum is commutative and associative, so the reduce at b is the fold of min over the 64 negatives
  rw [Host.reduce_eq_fold_single (FloatOps.minimumf (F := Ideal) (φ := .f32)) _ _ reducesTo_S4096x64_S4096_d1 h h_S_]
  have hf : (negDist U Nn ∘ h.lift (ix1 b)) = fun k : Fin 64 => negDistAt U Nn b k :=
    funext fun k => by
      show negDist U Nn (h.lift (ix1 b) k) = _
      rw [lift_ix1 h b k]
      rfl
  unfold closest closestAt
  rw [val_main_cst_16_apply]
  exact congrArg (fun f => Finset.fold min (Ideal.ofBits .f32 0x7F800000#32) f (Finset.univ : Finset (Fin 64))) hf

end Cert.Retrieval.RefSide

end
-- ==== Proof.lean ====
/-
  The certificate of the nearest-negative retrieval kernel against its jnp reference.

  Both programs compute, per example b of 4096: the user row u = Wu[user_b]; the combined positive row
  p = (Wi[item_b] + Wart[artist_b] + Walb[album_b]) / 3; 64 combined negative rows n_k formed the same way; and
  return  ∑_d (u_d − p_d)²,  the 64 sums ∑_d (u_d − n_{k,d})²,  and the minimum of those 64 from +∞.
  The kernel gathers and combines the rows on the host and does the distances inside one pallas_call over 32 blocks
  of 128 examples; the reference does everything on the host.

  The two differ in ONE place: the kernel gathers with the fill convention (a row whose wrapped index falls outside
  [0, n − 1] is replaced by the word 0x7FC00000) and the reference with the clamping one. They agree exactly when
  every index x into an n-row table satisfies −n ≤ x < n, which is the precondition's index conjunct (outside it the
  reference itself indexes out of range). Under it:
    • the precondition, as printed, yields the seven range facts (RangesOfPre);
    • the three arrays the kernel launches on are the reference's stages %8, %35, %63 (HostBridge);
    • the kernel's results are the specification's functions of those arrays (KernelArrays);
    • the reference's results are the same functions of its stages (ReferenceArrays).
  No law of the extended reals beyond reading a lane sum as a finite sum and a lane minimum as a fold of min is
  used, so the finiteness of the tables is never opened.

  The frames of the two kernel programs are the generated class-A frames; the reference's frame is its generated
  run with the results dropped; the idealization rewrote nothing, so `preserves` is `True`.
-/
import proofs.«415283_j85383949844517_2_alg».proof.Defs
import proofs.«415283_j85383949844517_2_alg».proof.Proof.Gen.Kernel
import proofs.«415283_j85383949844517_2_alg».proof.Proof.Gen.Kernel.Skeleton
import proofs.«415283_j85383949844517_2_alg».proof.Proof.Gen.Kernel.Launch
import proofs.«415283_j85383949844517_2_alg».proof.Proof.Gen.Kernel.Points
import proofs.«415283_j85383949844517_2_alg».proof.Proof.Gen.Kernel.Frame
import proofs.«415283_j85383949844517_2_alg».proof.Proof.Gen.KernelIdeal
import proofs.«415283_j85383949844517_2_alg».proof.Proof.Gen.KernelIdeal.Skeleton
import proofs.«415283_j85383949844517_2_alg».proof.Proof.Gen.KernelIdeal.Launch
import proofs.«415283_j85383949844517_2_alg».proof.Proof.Gen.KernelIdeal.Points
import proofs.«415283_j85383949844517_2_alg».proof.Proof.Gen.KernelIdeal.Frame
import proofs.«415283_j85383949844517_2_alg».proof.Proof.Gen.ReferenceIdeal
import proofs.«415283_j85383949844517_2_alg».proof.Proof.Gen.Pre_finite_inputs
import proofs.«415283_j85383949844517_2_alg».proof.Proof.Gen.KernelIdeal.Value
import proofs.«415283_j85383949844517_2_alg».proof.Proof.Gen.ReferenceIdeal.Run
import proofs.«415283_j85383949844517_2_alg».proof.Proof.Gen.ReferenceIdeal.Read
import proofs.«415283_j85383949844517_2_alg».proof.Proof.Spec
import proofs.«415283_j85383949844517_2_alg».proof.Proof.Ranges
import proofs.«415283_j85383949844517_2_alg».proof.Proof.RangesOfPre
import proofs.«415283_j85383949844517_2_alg».proof.Proof.HostBridge
import proofs.«415283_j85383949844517_2_alg».proof.Proof.KernelArrays
import proofs.«415283_j85383949844517_2_alg».proof.Proof.ReferenceArrays
import Idealize.ShloMosaic.Adequacy
import Idealize.ShloMosaic.Init

noncomputable section

namespace Cert.Proof

open Idealize.ShloMosaic Idealize.ShloMosaic.TcCoe Idealize.SL.Sem Cert.Retrieval

/-- The word-level kernel runs and leaves its arguments as they were: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its generated run, the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories that agree on the twelve arguments and satisfy the precondition, the idealized kernel and the
    idealized reference end with the same three arrays: the specification of the reference's stages %8, %35, %63. -/
theorem algebraic : Cert.algebraic_KernelIdeal_ReferenceIdeal := by
  intro m ρ m' ρ' hpre hagree
  refine ⟨fun c => posDist (Cert.KernelIdeal.Gen.V (F := Ideal) m c Cert.KernelIdeal.main_v4) (Cert.KernelIdeal.Gen.V (F := Ideal) m c Cert.KernelIdeal.main_v11),
    fun c => negDist (Cert.KernelIdeal.Gen.V (F := Ideal) m c Cert.KernelIdeal.main_v4) (Cert.KernelIdeal.Gen.V (F := Ideal) m c Cert.KernelIdeal.main_v18),
    fun c => closest (Cert.KernelIdeal.Gen.V (F := Ideal) m c Cert.KernelIdeal.main_v4) (Cert.KernelIdeal.Gen.V (F := Ideal) m c Cert.KernelIdeal.main_v18),
    KernelSide.run m ρ, ?_⟩
  refine (θ_run Cert.ReferenceIdeal.defs _ _).mono (fun r h c => ?_) (Cert.ReferenceIdeal.Value.run (F := Ideal) m' ρ')
  -- the index inputs, as the kernel's memory holds them, are in range
  have hr : HostBridge.InRange m c := ranges_of_pre _ _ _ _ _ _ _ _ _ _ _ _ (hpre c)
  obtain ⟨h0, h1, h2, hargs⟩ := h c
  refine ⟨h0.trans ?_, h1.trans ?_, h2.trans ?_, hargs⟩
  · rw [Cert.ReferenceIdeal.Read.val_main_v38_eq, (hagree c).1, (hagree c).2.1, (hagree c).2.2.1, (hagree c).2.2.2.2.2.2.2.2.1, (hagree c).2.2.2.2.2.2.2.2.2.1, (hagree c).2.2.2.2.2.2.2.2.2.2.1, (hagree c).2.2.2.2.2.2.2.2.2.2.2,
      RefSide.posDist_eq]
    show _ = posDist (Cert.KernelIdeal.Gen.V (F := Ideal) m c Cert.KernelIdeal.main_v4) (Cert.KernelIdeal.Gen.V (F := Ideal) m c Cert.KernelIdeal.main_v11)
    rw [HostBridge.users_eq m c hr, HostBridge.pos_eq m c hr]
  · rw [Cert.ReferenceIdeal.Read.val_main_v68_eq, (hagree c).1, (hagree c).2.2.2.1, (hagree c).2.2.2.2.1, (hagree c).2.2.2.2.2.1, (hagree c).2.2.2.2.2.2.2.2.1, (hagree c).2.2.2.2.2.2.2.2.2.1, (hagree c).2.2.2.2.2.2.2.2.2.2.1, (hagree c).2.2.2.2.2.2.2.2.2.2.2,
      RefSide.negDist_eq]
    show _ = negDist (Cert.KernelIdeal.Gen.V (F := Ideal) m c Cert.KernelIdeal.main_v4) (Cert.KernelIdeal.Gen.V (F := Ideal) m c Cert.KernelIdeal.main_v18)
    rw [HostBridge.users_eq m c hr, HostBridge.neg_eq m c hr]
  · rw [Cert.ReferenceIdeal.Read.val_main_v69_eq, (hagree c).1, (hagree c).2.2.2.1, (hagree c).2.2.2.2.1, (hagree c).2.2.2.2.2.1, (hagree c).2.2.2.2.2.2.2.2.1, (hagree c).2.2.2.2.2.2.2.2.2.1, (hagree c).2.2.2.2.2.2.2.2.2.2.1, (hagree c).2.2.2.2.2.2.2.2.2.2.2,
      RefSide.closest_eq]
    show _ = closest (Cert.KernelIdeal.Gen.V (F := Ideal) m c Cert.KernelIdeal.main_v4) (Cert.KernelIdeal.Gen.V (F := Ideal) m c Cert.KernelIdeal.main_v18)
    rw [HostBridge.users_eq m c hr, HostBridge.neg_eq m c hr]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
